-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x24 : Shape := ⟨2, ![524288, 24]⟩
abbrev S524288x256 : Shape := ⟨2, ![524288, 256]⟩
abbrev S256x24 : Shape := ⟨2, ![256, 24]⟩
abbrev S256 : Shape := ⟨1, ![256]⟩
abbrev S256x256 : Shape := ⟨2, ![256, 256]⟩
abbrev S12x256 : Shape := ⟨2, ![12, 256]⟩
abbrev S12 : Shape := ⟨1, ![12]⟩
abbrev S_ : Shape := ⟨0, ![]⟩

class Facts : Prop where
  bcast_S_S524288x24 : S_.BroadcastsInDim S524288x24 (![] : Fin 0 → Fin S524288x24.rank)
  reducesTo_S524288x24_S_d0_1 : S524288x24.ReducesTo [0, 1] S_
  h_S_ : 0 < S_.numel
  bcast_S_S524288x256 : S_.BroadcastsInDim S524288x256 (![] : Fin 0 → Fin S524288x256.rank)
  reducesTo_S524288x256_S_d0_1 : S524288x256.ReducesTo [0, 1] S_
  bcast_S_S256x24 : S_.BroadcastsInDim S256x24 (![] : Fin 0 → Fin S256x24.rank)
  reducesTo_S256x24_S_d0_1 : S256x24.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S12x256 : S_.BroadcastsInDim S12x256 (![] : Fin 0 → Fin S12x256.rank)
  reducesTo_S12x256_S_d0_1 : S12x256.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S12 .f32) (main_v33 : IVec S_ 1) : IVec S_ 1 :=
  let main_v34 : FVec F S12 .f32 := Host.absf main_arg7
  let main_cst_12 : FVec F S_ .f32 := constant S_ .f32 0x7F800000#32
  let main_v35 : FVec F S12 .f32 := broadcastInDim S12 ![] bcast_S_S12 main_cst_12
  let main_v36 : IVec S12 1 := cmpf .olt main_v34 main_v35
  let main_c_13 : IVec S_ 1 := constantI S_ 1 1#1
  let main_v37 : IVec S_ 1 := (fun x v => Host.reduce IntOp.andi x v reducesTo_S12_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S12x256 .f32) (main_arg7 : FVec F S12 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S12x256 .f32 := Host.absf main_arg6
  let main_cst_10 : FVec F S_ .f32 := constant S_ .f32 0x7F800000#32
  let main_v30 : FVec F S12x256 .f32 := broadcastInDim S12x256 ![] bcast_S_S12x256 main_cst_10
  let main_v31 : IVec S12x256 1 := cmpf .olt main_v29 main_v30
  let main_c_11 : IVec S_ 1 := constantI S_ 1 1#1
  let main_v32 : IVec S_ 1 := (fun x v => Host.reduce IntOp.andi x v reducesTo_S12x256_S_d0_1 h_S_) main_v31 main_c_11
  let main_v33 : IVec S_ 1 := andi main_v28 main_v32
  fn_part2 (F := F) main_arg7 main_v33

def fn {F : FTy → Type} [FloatOps F] (main_arg0 : FVec F S524288x24 .f32) (main_arg1 : FVec F S524288x256 .f32) (main_arg2 : FVec F S256x24 .f32) (main_arg3 : FVec F S256 .f32) (main_arg4 : FVec F S256x256 .f32) (main_arg5 : FVec F S256 .f32) (main_arg6 : FVec F S12x256 .f32) (main_arg7 : FVec F S12 .f32) : IVec S_ 1 :=
  let main_v0 : FVec F S524288x24 .f32 := Host.absf main_arg0
  let main_cst : FVec F S_ .f32 := constant S_ .f32 0x7F800000#32
  let main_v1 : FVec F S524288x24 .f32 := broadcastInDim S524288x24 ![] bcast_S_S524288x24 main_cst
  let main_v2 : IVec S524288x24 1 := cmpf .olt main_v0 main_v1
  let main_c : IVec S_ 1 := constantI S_ 1 1#1
  let main_v3 : IVec S_ 1 := (fun x v => Host.reduce IntOp.andi x v reducesTo_S524288x24_S_d0_1 h_S_) main_v2 main_c
  let main_v4 : FVec F S524288x256 .f32 := Host.absf main_arg1
  let main_cst_0 : FVec F S_ .f32 := constant S_ .f32 0x7F800000#32
  let main_v5 : FVec F S524288x256 .f32 := broadcastInDim S524288x256 ![] bcast_S_S524288x256 main_cst_0
  let main_v6 : IVec S524288x256 1 := cmpf .olt main_v4 main_v5
  let main_c_1 : IVec S_ 1 := constantI S_ 1 1#1
  let main_v7 : IVec S_ 1 := (fun x v => Host.reduce IntOp.andi x v reducesTo_S524288x256_S_d0_1 h_S_) main_v6 main_c_1
  let main_v8 : IVec S_ 1 := andi main_v3 main_v7
  let main_v9 : FVec F S256x24 .f32 := Host.absf main_arg2
  let main_cst_2 : FVec F S_ .f32 := constant S_ .f32 0x7F800000#32
  let main_v10 : FVec F S256x24 .f32 := broadcastInDim S256x24 ![] bcast_S_S256x24 main_cst_2
  let main_v11 : IVec S256x24 1 := cmpf .olt main_v9 main_v10
  let main_c_3 : IVec S_ 1 := constantI S_ 1 1#1
  let main_v12 : IVec S_ 1 := (fun x v => Host.reduce IntOp.andi x v reducesTo_S256x24_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S524288x24 : Shape := ⟨2, ![524288, 24]⟩
abbrev S524288x256 : Shape := ⟨2, ![524288, 256]⟩
abbrev S256x24 : Shape := ⟨2, ![256, 24]⟩
abbrev S256 : Shape := ⟨1, ![256]⟩
abbrev S256x256 : Shape := ⟨2, ![256, 256]⟩
abbrev S12x256 : Shape := ⟨2, ![12, 256]⟩
abbrev S12 : Shape := ⟨1, ![12]⟩
abbrev S24x256 : Shape := ⟨2, ![24, 256]⟩
abbrev S256x12 : Shape := ⟨2, ![256, 12]⟩
abbrev S1x256 : Shape := ⟨2, ![1, 256]⟩
abbrev S1x12 : Shape := ⟨2, ![1, 12]⟩
abbrev S524288x12 : Shape := ⟨2, ![524288, 12]⟩
abbrev S4096x24 : Shape := ⟨2, ![4096, 24]⟩
abbrev S4096x256 : Shape := ⟨2, ![4096, 256]⟩
abbrev S4096x12 : Shape := ⟨2, ![4096, 12]⟩
abbrev S1024x24 : Shape := ⟨2, ![1024, 24]⟩
abbrev S1024x256 : Shape := ⟨2, ![1024, 256]⟩
abbrev S1024x12 : Shape := ⟨2, ![1024, 12]⟩
abbrev S1024 : Shape := ⟨1, ![1024]⟩
abbrev S1024x1 : Shape := ⟨2, ![1024, 1]⟩

abbrev nBuf : Space → Nat
  | .hbm => 16
  | .vmem => 13
  | .smem => 0
  | _ => 0

abbrev bufTy : (tb : Table) → Fin (tcTables nBuf tb) → BufTy
  | .hbm, ⟨0, _⟩ => ⟨S524288x24, .f32⟩
  | .hbm, ⟨1, _⟩ => ⟨S524288x256, .f32⟩
  | .hbm, ⟨2, _⟩ => ⟨S256x24, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S12x256, .f32⟩
  | .hbm, ⟨7, _⟩ => ⟨S12, .f32⟩
  | .hbm, ⟨8, _⟩ => ⟨S24x256, .f32⟩
  | .hbm, ⟨9, _⟩ => ⟨S256x256, .f32⟩
  | .hbm, ⟨10, _⟩ => ⟨S256x12, .f32⟩
  | .hbm, ⟨11, _⟩ => ⟨S256, .f32⟩
  | .hbm, ⟨12, _⟩ => ⟨S1x256, .f32⟩
  | .hbm, ⟨13, _⟩ => ⟨S1x12, .f32⟩
  | .hbm, ⟨14, _⟩ => ⟨S524288x256, .f32⟩
  | .hbm, ⟨15, _⟩ => ⟨S524288x12, .f32⟩
  | .local _ .vmem, ⟨0, _⟩ => ⟨S4096x24, .f32⟩
  | .local _ .vmem, ⟨1, _⟩ => ⟨S4096x24, .f32⟩
  | .local _ .vmem, ⟨2, _⟩ => ⟨S4096x256, .f32⟩
  | .local _ .vmem, ⟨3, _⟩ => ⟨S4096x256, .f32⟩
  | .local _ .vmem, ⟨4, _⟩ => ⟨S24x256, .f32⟩
  | .local _ .vmem, ⟨5, _⟩ => ⟨S256x256, .f32⟩
  | .local _ .vmem, ⟨6, _⟩ => ⟨S1x256, .f32⟩
  | .local _ .vmem, ⟨7, _⟩ => ⟨S256x12, .f32⟩
  | .local _ .vmem, ⟨8, _⟩ => ⟨S1x12, .f32⟩
  | .local _ .vmem, ⟨9, _⟩ => ⟨S4096x256, .f32⟩
  | .local _ .vmem, ⟨10, _⟩ => ⟨S4096x256, .f32⟩
  | .local _ .vmem, ⟨11, _⟩ => ⟨S4096x12, .f32⟩
  | .local _ .vmem, ⟨12, _⟩ => ⟨S4096x12, .f32⟩
  | _, _ => ⟨S524288x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def k0_mult1 : BitVec 32 :=
  let c0_i32 : BitVec 32 := 0#32
  let c1024_i32 : BitVec 32 := 1024#32
  let v13 : BitVec 32 := Scalar.muli c0_i32 c1024_i32
  v13
def k0_off1 (c0_i32 : BitVec 32) : Fin 2 → Nat :=
  let c1024_i32 : BitVec 32 := 1024#32
  let v13 : BitVec 32 := Scalar.muli c0_i32 c1024_i32
  let v14 : BitVec 32 := v13
  let v15 : Index := Scalar.indexCast v14
  let c0_9 : Index := 0#32
  ![v15.toNat, 0]
def k0_off2 (c0_i32 : BitVec 32) : Fin 2 → Nat :=
  let c1024_i32 : BitVec 32 := 1024#32
  let v13 : BitVec 32 := Scalar.muli c0_i32 c1024_i32
  let v14 : BitVec 32 := v13
  let v18 : Index := Scalar.indexCast v14
  let c0_10 : Index := 0#32
  ![v18.toNat, 0]
def k0_off3 (c0_i32 : BitVec 32) : Fin 2 → Nat :=
  let c1024_i32 : BitVec 32 := 1024#32
  let v13 : BitVec 32 := Scalar.muli c0_i32 c1024_i32
  let v14 : BitVec 32 := v13
  let v42 : Index := Scalar.indexCast v14
  let c0_16 : Index := 0#32
  ![v42.toNat, 0]
def k0_mult2 : BitVec 32 :=
  let c1_i32 : BitVec 32 := 1#32
  let c1024_i32_17 : BitVec 32 := 1024#32
  let v44 : BitVec 32 := Scalar.muli c1_i32 c1024_i32_17
  v44
def k0_mult3 : BitVec 32 :=
  let c2_i32 : BitVec 32 := 2#32
  let c1024_i32_27 : BitVec 32 := 1024#32
  let v75 : BitVec 32 := Scalar.muli c2_i32 c1024_i32_27
  v75
def k0_mult4 : BitVec 32 :=
  let c3_i32 : BitVec 32 := 3#32
  let c1024_i32_37 : BitVec 32 := 1024#32
  let v106 : BitVec 32 := Scalar.muli c3_i32 c1024_i32_37
  v106
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x12 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S256x24_S24x256_1_0 : S256x24.Transposes [1, 0] S24x256
  transposes_S256x256_S256x256_1_0 : S256x256.Transposes [1, 0] S256x256
  transposes_S12x256_S256x12_1_0 : S12x256.Transposes [1, 0] S256x12
  shapeCasts_S256_S1x256 : S256.ShapeCasts S1x256
  shapeCasts_S12_S1x12 : S12.ShapeCasts S1x12
  inb_S24x256_S24x256_0_0 : ∀ a, (![0, 0] : Fin 2 → Nat) a + S24x256.size a ≤ S24x256.size a
  h_S24x256 : 0 < S24x256.numel
  shapeCasts_S24x256_S24x256 : S24x256.ShapeCasts S24x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x12_S256x12_0_0 : ∀ a, (![0, 0] : Fin 2 → Nat) a + S256x12.size a ≤ S256x12.size a
  h_S256x12 : 0 < S256x12.numel
  shapeCasts_S256x12_S256x12 : S256x12.ShapeCasts S256x12
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x12_S1x12_0_0 : ∀ a, (![0, 0] : Fin 2 → Nat) a + S1x12.size a ≤ S1x12.size a
  h_S1x12 : 0 < S1x12.numel
  shapeCasts_S1x12_S1x12 : S1x12.ShapeCasts S1x12
  h_S1024x24 : 0 < S1024x24.numel
  h_S1024x256 : 0 < S1024x256.numel
  broadcasts_S1x256_S1024x256 : S1x256.Broadcasts S1024x256
  broadcasts_S1x12_S1024x12 : S1x12.Broadcasts S1024x12
  reduces_S1024x12_S1024 : S1024x12.Reduces [1] S1024
  shapeCasts_S1024_S1024x1 : S1024.ShapeCasts S1024x1
  broadcasts_S1024x1_S1024x12 : S1024x1.Broadcasts S1024x12
  h_S1024x12 : 0 < S1024x12.numel
  dot_S1024x24_S24x256_S1024x256_1_0_0_1_n_n_wf : DotDims.WF S1024x24 S24x256 S1024x256 [1] [0] [0] [1] [] []
  dot_S1024x256_S256x256_S1024x256_1_0_0_1_n_n_wf : DotDims.WF S1024x256 S256x256 S1024x256 [1] [0] [0] [1] [] []
  dot_S1024x256_S256x12_S1024x12_1_0_0_1_n_n_wf : DotDims.WF S1024x256 S256x12 S1024x12 [1] [0] [0] [1] [] []
  hrank0 : 0 < grid0.rank
  k0_mult1_dvd : 1024 ∣ k0_mult1.toNat
  k0_off1_inb : ∀ (r : Fin 4), ∀ a, (k0_off1 (BitVec.ofNat 32 r.val)) a + S1024x24.size a ≤ S4096x24.size a
  k0_off2_inb : ∀ (r : Fin 4), ∀ a, (k0_off2 (BitVec.ofNat 32 r.val)) a + S1024x256.size a ≤ S4096x256.size a
  k0_off3_inb : ∀ (r : Fin 4), ∀ a, (k0_off3 (BitVec.ofNat 32 r.val)) a + S1024x12.size a ≤ S4096x12.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x24.size a ≤ S524288x24.size a
  hwx0_0 : ∀ i : grid0.Coords, EltTy.bits .f32 = 32 ∨ (Rect.block (s := S524288x24) S4096x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S524288x256.size a
  hwx0_1 : ∀ i : grid0.Coords, EltTy.bits .f32 = 32 ∨ (Rect.block (s := S524288x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x256.size a ≤ S24x256.size a
  hwx0_2 : ∀ i : grid0.Coords, EltTy.bits .f32 = 32 ∨ (Rect.block (s := S24x256) S24x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x12.size a ≤ S256x12.size a
  hwx0_5 : ∀ i : grid0.Coords, EltTy.bits .f32 = 32 ∨ (Rect.block (s := S256x12) S256x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x12.size a ≤ S1x12.size a
  hwx0_6 : ∀ i : grid0.Coords, EltTy.bits .f32 = 32 ∨ (Rect.block (s := S1x12) S1x12.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S524288x256.size a
  hwx0_7 : ∀ i : grid0.Coords, EltTy.bits .f32 = 32 ∨ (Rect.block (s := S524288x256) S4096x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x12.size a ≤ S524288x12.size a
  hwx0_8 : ∀ i : grid0.Coords, EltTy.bits .f32 = 32 ∨ (Rect.block (s := S524288x12) S4096x12.size (cc0_transform_8 i) (hinb0_8 i)).WholeWords (EltTy.packing .f32)

variable [Facts₀]

def dot_S1024x24_S24x256_S1024x256_1_0_0_1_n_n : DotDims S1024x24 S24x256 S1024x256 where
  lhsContracting := [1]
  rhsContracting := [0]
  lhsNonContracting := [0]
  rhsNonContracting := [1]
  lhsBatch := []
  rhsBatch := []
  wf := dot_S1024x24_S24x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x12_S1024x12_1_0_0_1_n_n : DotDims S1024x256 S256x12 S1024x12 where
  lhsContracting := [1]
  rhsContracting := [0]
  lhsNonContracting := [0]
  rhsNonContracting := [1]
  lhsBatch := []
  rhsBatch := []
  wf := dot_S1024x256_S256x12_S1024x12_1_0_0_1_n_n_wf

abbrev win0_0 : Pipeline.Window sig grid0 :=
  Pipeline.Window.ofSpec (Memref.whole main_arg0) S4096x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S24x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S4096x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S4096x12.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S524288x24 : Shape := ⟨2, ![524288, 24]⟩
abbrev S524288x256 : Shape := ⟨2, ![524288, 256]⟩
abbrev S256x24 : Shape := ⟨2, ![256, 24]⟩
abbrev S256 : Shape := ⟨1, ![256]⟩
abbrev S256x256 : Shape := ⟨2, ![256, 256]⟩
abbrev S12x256 : Shape := ⟨2, ![12, 256]⟩
abbrev S12 : Shape := ⟨1, ![12]⟩
abbrev S24x256 : Shape := ⟨2, ![24, 256]⟩
abbrev S1x256 : Shape := ⟨2, ![1, 256]⟩
abbrev S256x12 : Shape := ⟨2, ![256, 12]⟩
abbrev S524288x12 : Shape := ⟨2, ![524288, 12]⟩
abbrev S1x12 : Shape := ⟨2, ![1, 12]⟩
abbrev S_ : Shape := ⟨0, ![]⟩
abbrev S524288 : Shape := ⟨1, ![524288]⟩
abbrev S524288x1 : Shape := ⟨2, ![524288, 1]⟩

abbrev nBuf : Space → Nat
  | .hbm => 39
  | .vmem => 0
  | .smem => 0
  | _ => 0

abbrev bufTy : (tb : Table) → Fin (tcTables nBuf tb) → BufTy
  | .hbm, ⟨0, _⟩ => ⟨S524288x24, .f32⟩
  | .hbm, ⟨1, _⟩ => ⟨S524288x256, .f32⟩
  | .hbm, ⟨2, _⟩ => ⟨S256x24, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S12x256, .f32⟩
  | .hbm, ⟨7, _⟩ => ⟨S12, .f32⟩
  | .hbm, ⟨8, _⟩ => ⟨S24x256, .f32⟩
  | .hbm, ⟨9, _⟩ => ⟨S524288x256, .f32⟩
  | .hbm, ⟨10, _⟩ => ⟨S1x256, .f32⟩
  | .hbm, ⟨11, _⟩ => ⟨S524288x256, .f32⟩
  | .hbm, ⟨12, _⟩ => ⟨S524288x256, .f32⟩
  | .hbm, ⟨13, _⟩ => ⟨S256x256, .f32⟩
  | .hbm, ⟨14, _⟩ => ⟨S524288x256, .f32⟩
  | .hbm, ⟨15, _⟩ => ⟨S524288x256, .f32⟩
  | .hbm, ⟨16, _⟩ => ⟨S1x256, .f32⟩
  | .hbm, ⟨17, _⟩ => ⟨S524288x256, .f32⟩
  | .hbm, ⟨18, _⟩ => ⟨S524288x256, .f32⟩
  | .hbm, ⟨19, _⟩ => ⟨S524288x256, .f32⟩
  | .hbm, ⟨20, _⟩ => ⟨S256x12, .f32⟩
  | .hbm, ⟨21, _⟩ => ⟨S524288x12, .f32⟩
  | .hbm, ⟨22, _⟩ => ⟨S1x12, .f32⟩
  | .hbm, ⟨23, _⟩ => ⟨S524288x12, .f32⟩
  | .hbm, ⟨24, _⟩ => ⟨S524288x12, .f32⟩
  | .hbm, ⟨25, _⟩ => ⟨S_, .f32⟩
  | .hbm, ⟨26, _⟩ => ⟨S524288, .f32⟩
  | .hbm, ⟨27, _⟩ => ⟨S_, .f32⟩
  | .hbm, ⟨28, _⟩ => ⟨S524288, .f32⟩
  | .hbm, ⟨29, _⟩ => ⟨S524288, .f32⟩
  | .hbm, ⟨30, _⟩ => ⟨S524288x1, .f32⟩
  | .hbm, ⟨31, _⟩ => ⟨S524288x12, .f32⟩
  | .hbm, ⟨32, _⟩ => ⟨S524288x12, .f32⟩
  | .hbm, ⟨33, _⟩ => ⟨S524288x12, .f32⟩
  | .hbm, ⟨34, _⟩ => ⟨S_, .f32⟩
  | .hbm, ⟨35, _⟩ => ⟨S524288, .f32⟩
  | .hbm, ⟨36, _⟩ => ⟨S524288x1, .f32⟩
  | .hbm, ⟨37, _⟩ => ⟨S524288x12, .f32⟩
  | .hbm, ⟨38, _⟩ => ⟨S524288x12, .f32⟩
  | _, _ => ⟨S524288x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  transposes_S256x24_S24x256_1_0 : S256x24.Transposes [1, 0] S24x256
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  transposes_S256x256_S256x256_1_0 : S256x256.Transposes [1, 0] S256x256
  transposes_S12x256_S256x12_1_0 : S12x256.Transposes [1, 0] S256x12
  bcast_S12_S1x12_1 : S12.BroadcastsInDim S1x12 (![1] : Fin 1 → Fin S1x12.rank)
  bcast_S1x12_S524288x12_0_1 : S1x12.BroadcastsInDim S524288x12 (![0, 1] : Fin 2 → Fin S524288x12.rank)
  reducesTo_S524288x12_S524288_d1 : S524288x12.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x12_0_1 : S524288x1.BroadcastsInDim S524288x12 (![0, 1] : Fin 2 → Fin S524288x12.rank)
  dot_S524288x24_S24x256_S524288x256_1_0_0_1_n_n_wf : DotDims.WF S524288x24 S24x256 S524288x256 [1] [0] [0] [1] [] []
  dot_S524288x256_S256x256_S524288x256_1_0_0_1_n_n_wf : DotDims.WF S524288x256 S256x256 S524288x256 [1] [0] [0] [1] [] []
  dot_S524288x256_S256x12_S524288x12_1_0_0_1_n_n_wf : DotDims.WF S524288x256 S256x12 S524288x12 [1] [0] [0] [1] [] []

variable [Facts₀]

def dot_S524288x24_S24x256_S524288x256_1_0_0_1_n_n : DotDims S524288x24 S24x256 S524288x256 where
  lhsContracting := [1]
  rhsContracting := [0]
  lhsNonContracting := [0]
  rhsNonContracting := [1]
  lhsBatch := []
  rhsBatch := []
  wf := dot_S524288x24_S24x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x12_S524288x12_1_0_0_1_n_n : DotDims S524288x256 S256x12 S524288x12 where
  lhsContracting := [1]
  rhsContracting := [0]
  lhsNonContracting := [0]
  rhsNonContracting := [1]
  lhsBatch := []
  rhsBatch := []
  wf := dot_S524288x256_S256x12_S524288x12_1_0_0_1_n_n_wf

class Facts : Prop extends Facts₀ where

variable [Facts]
-- ==== Proof.RnnRow.lean ====
/-
  The mathematics both programs compute, stated once over plain functions of the extended reals.

  One row of the step: from a row `xr` of the inputs (24 entries) and a row `hr` of the old hidden state (256
  entries) the new hidden row is `tanh (xr · Wihᵀ + hr · Whhᵀ + b)`, entry by entry, where `b` is the sum of the two
  bias vectors; the row's logits are `h · Wprojᵀ + bproj` (12 entries); and the output row is their softmax: each
  logit less the row's maximum, exponentiated, divided by the sum of those exponentials.

  The only law needed to join the two programs is that addition on the extended reals is commutative and associative
  (they add the two biases in different places), that the maximum of a value with a fold of maxima started from that
  value is the fold, and that a sum started from zero is the sum.
-/
import Idealize.ShloMosaic.PureOps.Ideal
import Idealize.ShloMosaic.PureOps.Ideal.Laws
import Idealize.ShloMosaic.Lib.ValueIdx
import Mathlib.Data.Finset.Fold

noncomputable section

namespace Cert.RnnStep

open Idealize.ShloMosaic Idealize.ShloMosaic.ValueIdx

/-- The value the row maximum is folded from: the word both programs print for it (minus infinity). -/
abbrev maxInit : EReal := Ideal.ofBits .f32 0xFF800000#32

/-- Entry `j` of the new hidden row: `tanh` of the two dot products plus the bias. -/
def hidRow (xr : Fin 24 → EReal) (hr : Fin 256 → EReal) (wih : Fin 24 → Fin 256 → EReal)
    (whh : Fin 256 → Fin 256 → EReal) (b : Fin 256 → EReal) (j : Fin 256) : EReal :=
  Ideal.tanh ((∑ k : Fin 24, xr k * wih k j) + (∑ k : Fin 256, hr k * whh k j) + b j)

/-- Logit `o` of a hidden row `h`. -/
def logitRow (h : Fin 256 → EReal) (wp : Fin 256 → Fin 12 → EReal) (bp : Fin 12 → EReal) (o : Fin 12) : EReal :=
  (∑ k : Fin 256, h k * wp k o) + bp o

/-- The maximum of a row of twelve logits, folded from `maxInit`. -/
def rowMax (z : Fin 12 → EReal) : EReal := (Finset.univ : Finset (Fin 12)).fold max maxInit z

/-- Entry `o` of the softmax of a row of twelve logits. -/
def softRow (z : Fin 12 → EReal) (o : Fin 12) : EReal :=
  Ideal.div (Ideal.exp (z o - rowMax z)) (∑ o' : Fin 12, Ideal.exp (z o' - rowMax z))

/-- The new hidden state, whole: row `n` from row `n` of `x` and of `hid`; the weights are read transposed and the two
    biases are summed. -/
def hNew (x : (⟨2, ![524288, 24]⟩ : Shape).Idx → EReal) (hid : (⟨2, ![524288, 256]⟩ : Shape).Idx → EReal)
    (Wih : (⟨2, ![256, 24]⟩ : Shape).Idx → EReal) (bih : (⟨1, ![256]⟩ : Shape).Idx → EReal)
    (Whh : (⟨2, ![256, 256]⟩ : Shape).Idx → EReal) (bhh : (⟨1, ![256]⟩ : Shape).Idx → EReal) :
    (⟨2, ![524288, 256]⟩ : Shape).Idx → EReal :=
  fun i => hidRow (fun k => x (ix2 (i 0) k)) (fun k => hid (ix2 (i 0) k)) (fun k j => Wih (ix2 j k))
    (fun k j => Whh (ix2 j k)) (fun j => bih (ix1 j) + bhh (ix1 j)) (i 1)

/-- The output probabilities, whole: row `n` is the softmax of the logits of row `n` of the new hidden state. -/
def probs (x : (⟨2, ![524288, 24]⟩ : Shape).Idx → EReal) (hid : (⟨2, ![524288, 256]⟩ : Shape).Idx → EReal)
    (Wih : (⟨2, ![256, 24]⟩ : Shape).Idx → EReal) (bih : (⟨1, ![256]⟩ : Shape).Idx → EReal)
    (Whh : (⟨2, ![256, 256]⟩ : Shape).Idx → EReal) (bhh : (⟨1, ![256]⟩ : Shape).Idx → EReal)
    (Wp : (⟨2, ![12, 256]⟩ : Shape).Idx → EReal) (bp : (⟨1, ![12]⟩ : Shape).Idx → EReal) :
    (⟨2, ![524288, 12]⟩ : Shape).Idx → EReal :=
  fun i => softRow (logitRow (fun k => hNew x hid Wih bih Whh bhh (ix2 (i 0) k)) (fun k o => Wp (ix2 o k))
    (fun o => bp (ix1 o))) (i 1)

/-- Adding the two biases one after the other, around the second dot product, is adding their sum at the end:
    addition on the extended reals is commutative and associative. -/
theorem add_bias_split (a c b₁ b₂ : EReal) : a + b₁ + c + b₂ = a + c + (b₁ + b₂) := by
  rw [add_assoc (a + b₁) c b₂, add_add_add_comm]

/-- A fold of maxima is at least the value it starts from, so taking the maximum with that value again changes nothing. -/
theorem max_init_rowMax (z : Fin 12 → EReal) : max maxInit (rowMax z) = rowMax z :=
  max_eq_right ((Finset.le_fold_max _).mpr (Or.inl le_rfl))

end Cert.RnnStep

end
-- ==== Proof.ChunkRow.lean ====
/-
  One chunk of 1024 rows of the kernel's arithmetic, read entry by entry.

  The kernel body is the same computation four times, on rows 0–1023, 1024–2047, 2048–3071 and 3072–4095 of its block.
  On one chunk: the hidden rows are `tanh (xc · w1 + hc · w2 + b)` with the bias row `b` repeated down the rows, and the
  output rows are the softmax, along the twelve columns, of `h · w3 + bp`. Read at row `r` these are the row functions
  `hidRow` and `softRow ∘ logitRow` of row `r` of the chunk's operands: a matrix product into a zero accumulator is the
  sum over the contracted index of the products, the row maximum is a fold of `max` over the twelve columns from the
  printed starting word, and the row sum from the zero word is the sum over the twelve columns.
-/
import proofs.«427981_j46179488366645_3_alg».proof.Proof.Gen.KernelIdeal.Skeleton
import proofs.«427981_j46179488366645_3_alg».proof.Proof.RnnRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx Cert.RnnStep

/-- The hidden rows of one chunk, as the body computes them (the narrowing of the operands to bf16 already applied). -/
def hidChunk (w1 : FVec Ideal S24x256 .bf16) (w2 : FVec Ideal S256x256 .bf16) (b : FVec Ideal S1x256 .f32)
    (xc : FVec Ideal S1024x24 .bf16) (hc : FVec Ideal S1024x256 .bf16) : FVec Ideal S1024x256 .f32 :=
  tanh (addf (addf
      (matmul dot_S1024x24_S24x256_S1024x256_1_0_0_1_n_n none xc w1 (constant S1024x256 .f32 0x00000000#32))
      (matmul dot_S1024x256_S256x256_S1024x256_1_0_0_1_n_n none hc w2 (constant S1024x256 .f32 0x00000000#32)))
    (broadcastTo S1024x256 b broadcasts_S1x256_S1024x256))

/-- The output rows of one chunk from its hidden rows, as the body computes them. -/
def probChunk (w3 : FVec Ideal S256x12 .bf16) (bp : FVec Ideal S1x12 .f32) (h : FVec Ideal S1024x256 .f32) :
    FVec Ideal S1024x12 .f32 :=
  let z : FVec Ideal S1024x12 .f32 :=
    addf (matmul dot_S1024x256_S256x12_S1024x12_1_0_0_1_n_n none (truncf .bf16 h bitsLt_bf16_f32) w3
      (constant S1024x12 .f32 0x00000000#32)) (broadcastTo S1024x12 bp broadcasts_S1x12_S1024x12)
  let e : FVec Ideal S1024x12 .f32 :=
    exp (subf z (broadcastTo S1024x12 (shapeCast S1024x1
      (multiReduction .maximumf [1] S1024 z 0xFF800000#32 reduces_S1024x12_S1024 (.inl rfl) rfl)
      shapeCasts_S1024_S1024x1) broadcasts_S1024x1_S1024x12))
  divf e (broadcastTo S1024x12 (shapeCast S1024x1
    (multiReduction .add [1] S1024 e 0x00000000#32 reduces_S1024x12_S1024 (.inl rfl) rfl)
    shapeCasts_S1024_S1024x1) broadcasts_S1024x1_S1024x12)

/-! ## The three matrix products at an entry

Each product contracts the second axis of its left operand with the first axis of its right operand. For each record the
four lemmas say which coordinate of the output index and which of the contraction index each operand index carries;
the product at entry `(r, j)` is then the sum over the contracted coordinate `k` of `lhs (r, k) * rhs (k, j)`. -/

/-- Input product, left operand: its row is the output row. -/
theorem lhs_dotIn_0 (i : S1024x256.Idx) (q : dot_S1024x24_S24x256_S1024x256_1_0_0_1_n_n.contr.Idx) :
    (dot_S1024x24_S24x256_S1024x256_1_0_0_1_n_n.lhsIdx i q 0).val = (i 0).val := by
  unfold DotDims.lhsIdx
  rw [dif_neg (show ¬(0 : Fin S1024x24.rank) ∈ dot_S1024x24_S24x256_S1024x256_1_0_0_1_n_n.lhsBatch by decide), dif_pos (show (0 : Fin S1024x24.rank) ∈ dot_S1024x24_S24x256_S1024x256_1_0_0_1_n_n.lhsNonContracting by decide)]
  rfl
/-- Input product, left operand: its column is the contracted coordinate. -/
theorem lhs_dotIn_1 (i : S1024x256.Idx) (q : dot_S1024x24_S24x256_S1024x256_1_0_0_1_n_n.contr.Idx) :
    (dot_S1024x24_S24x256_S1024x256_1_0_0_1_n_n.lhsIdx i q 1).val = (q ⟨0, by decide⟩).val :=
  dot_S1024x24_S24x256_S1024x256_1_0_0_1_n_n.lhsIdx_val_of_single rfl i q
/-- Input product, right operand: its row is the contracted coordinate. -/
theorem rhs_dotIn_0 (i : S1024x256.Idx) (q : dot_S1024x24_S24x256_S1024x256_1_0_0_1_n_n.contr.Idx) :
    (dot_S1024x24_S24x256_S1024x256_1_0_0_1_n_n.rhsIdx i q 0).val = (q ⟨0, by decide⟩).val :=
  dot_S1024x24_S24x256_S1024x256_1_0_0_1_n_n.rhsIdx_val_of_single rfl i q
/-- Input product, right operand: its column is the output column. -/
theorem rhs_dotIn_1 (i : S1024x256.Idx) (q : dot_S1024x24_S24x256_S1024x256_1_0_0_1_n_n.contr.Idx) :
    (dot_S1024x24_S24x256_S1024x256_1_0_0_1_n_n.rhsIdx i q 1).val = (i 1).val := by
  unfold DotDims.rhsIdx
  rw [dif_neg (show ¬(1 : Fin S24x256.rank) ∈ dot_S1024x24_S24x256_S1024x256_1_0_0_1_n_n.rhsBatch by decide), dif_pos (show (1 : Fin S24x256.rank) ∈ dot_S1024x24_S24x256_S1024x256_1_0_0_1_n_n.rhsNonContracting by decide)]
  rfl

/-- The input product `xc · w1` into the zero accumulator, at entry `(r, j)`: the sum over the 24 input features. -/
theorem matmulIn_apply (xc : FVec Ideal S1024x24 .bf16) (w1 : FVec Ideal S24x256 .bf16) (r : Fin 1024) (j : Fin 256) :
    matmul dot_S1024x24_S24x256_S1024x256_1_0_0_1_n_n none xc w1 (constant (F := Ideal) S1024x256 .f32 0x00000000#32) (ix2 r j)
      = ∑ k : Fin 24, xc (ix2 r k) * w1 (ix2 k j) := by
  simp only [matmul]
  rw [Ideal.matmul_constant_zero_apply, ← Equiv.sum_comp (ValueIdx.contrEquiv1 dot_S1024x24_S24x256_S1024x256_1_0_0_1_n_n 24 rfl rfl).symm]
  refine Finset.sum_congr rfl fun k _ => ?_
  have hk := ValueIdx.contrEquiv1_symm_val dot_S1024x24_S24x256_S1024x256_1_0_0_1_n_n 24 rfl rfl k
  have el : dot_S1024x24_S24x256_S1024x256_1_0_0_1_n_n.lhsIdx (ix2 r j) ((ValueIdx.contrEquiv1 dot_S1024x24_S24x256_S1024x256_1_0_0_1_n_n 24 rfl rfl).symm k) = ix2 r k := funext fun a => Fin.ext (by
    match a with
    | ⟨0, _⟩ => exact lhs_dotIn_0 _ _
    | ⟨1, _⟩ => exact (lhs_dotIn_1 _ _).trans hk)
  have er : dot_S1024x24_S24x256_S1024x256_1_0_0_1_n_n.rhsIdx (ix2 r j) ((ValueIdx.contrEquiv1 dot_S1024x24_S24x256_S1024x256_1_0_0_1_n_n 24 rfl rfl).symm k) = ix2 k j := funext fun a => Fin.ext (by
    match a with
    | ⟨0, _⟩ => exact (rhs_dotIn_0 _ _).trans hk
    | ⟨1, _⟩ => exact rhs_dotIn_1 _ _)
  rw [el, er]

/-- Hidden product, left operand: its row is the output row. -/
theorem lhs_dotHid_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- Hidden product, left operand: its column is the contracted coordinate. -/
theorem lhs_dotHid_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- Hidden product, right operand: its row is the contracted coordinate. -/
theorem rhs_dotHid_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- Hidden product, right operand: its column is the output column. -/
theorem rhs_dotHid_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The hidden product `hc · w2` into the zero accumulator, at entry `(r, j)`: the sum over the 256 hidden units. -/
theorem matmulHid_apply (hc : FVec Ideal S1024x256 .bf16) (w2 : FVec Ideal S256x256 .bf16) (r : Fin 1024) (j : Fin 256) :
    matmul dot_S1024x256_S256x256_S1024x256_1_0_0_1_n_n none hc w2 (constant (F := Ideal) S1024x256 .f32 0x00000000#32) (ix2 r j)
      = ∑ k : Fin 256, hc (ix2 r k) * w2 (ix2 k j) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r j) ((ValueIdx.contrEquiv1 dot_S1024x256_S256x256_S1024x256_1_0_0_1_n_n 256 rfl rfl).symm k) = ix2 r k := funext fun a => Fin.ext (by
    match a with
    | ⟨0, _⟩ => exact lhs_dotHid_0 _ _
    | ⟨1, _⟩ => exact (lhs_dotHid_1 _ _).trans hk)
  have er : dot_S1024x256_S256x256_S1024x256_1_0_0_1_n_n.rhsIdx (ix2 r j) ((ValueIdx.contrEquiv1 dot_S1024x256_S256x256_S1024x256_1_0_0_1_n_n 256 rfl rfl).symm k) = ix2 k j := funext fun a => Fin.ext (by
    match a with
    | ⟨0, _⟩ => exact (rhs_dotHid_0 _ _).trans hk
    | ⟨1, _⟩ => exact rhs_dotHid_1 _ _)
  rw [el, er]

/-- Output product, left operand: its row is the output row. -/
theorem lhs_dotOut_0 (i : S1024x12.Idx) (q : dot_S1024x256_S256x12_S1024x12_1_0_0_1_n_n.contr.Idx) :
    (dot_S1024x256_S256x12_S1024x12_1_0_0_1_n_n.lhsIdx i q 0).val = (i 0).val := by
  unfold DotDims.lhsIdx
  rw [dif_neg (show ¬(0 : Fin S1024x256.rank) ∈ dot_S1024x256_S256x12_S1024x12_1_0_0_1_n_n.lhsBatch by decide), dif_pos (show (0 : Fin S1024x256.rank) ∈ dot_S1024x256_S256x12_S1024x12_1_0_0_1_n_n.lhsNonContracting by decide)]
  rfl
/-- Output product, left operand: its column is the contracted coordinate. -/
theorem lhs_dotOut_1 (i : S1024x12.Idx) (q : dot_S1024x256_S256x12_S1024x12_1_0_0_1_n_n.contr.Idx) :
    (dot_S1024x256_S256x12_S1024x12_1_0_0_1_n_n.lhsIdx i q 1).val = (q ⟨0, by decide⟩).val :=
  dot_S1024x256_S256x12_S1024x12_1_0_0_1_n_n.lhsIdx_val_of_single rfl i q
/-- Output product, right operand: its row is the contracted coordinate. -/
theorem rhs_dotOut_0 (i : S1024x12.Idx) (q : dot_S1024x256_S256x12_S1024x12_1_0_0_1_n_n.contr.Idx) :
    (dot_S1024x256_S256x12_S1024x12_1_0_0_1_n_n.rhsIdx i q 0).val = (q ⟨0, by decide⟩).val :=
  dot_S1024x256_S256x12_S1024x12_1_0_0_1_n_n.rhsIdx_val_of_single rfl i q
/-- Output product, right operand: its column is the output column. -/
theorem rhs_dotOut_1 (i : S1024x12.Idx) (q : dot_S1024x256_S256x12_S1024x12_1_0_0_1_n_n.contr.Idx) :
    (dot_S1024x256_S256x12_S1024x12_1_0_0_1_n_n.rhsIdx i q 1).val = (i 1).val := by
  unfold DotDims.rhsIdx
  rw [dif_neg (show ¬(1 : Fin S256x12.rank) ∈ dot_S1024x256_S256x12_S1024x12_1_0_0_1_n_n.rhsBatch by decide), dif_pos (show (1 : Fin S256x12.rank) ∈ dot_S1024x256_S256x12_S1024x12_1_0_0_1_n_n.rhsNonContracting by decide)]
  rfl

/-- The output product `h · w3` into the zero accumulator, at entry `(r, o)`: the sum over the 256 hidden units. -/
theorem matmulOut_apply (h : FVec Ideal S1024x256 .bf16) (w3 : FVec Ideal S256x12 .bf16) (r : Fin 1024) (o : Fin 12) :
    matmul dot_S1024x256_S256x12_S1024x12_1_0_0_1_n_n none h w3 (constant (F := Ideal) S1024x12 .f32 0x00000000#32) (ix2 r o)
      = ∑ k : Fin 256, h (ix2 r k) * w3 (ix2 k o) := by
  simp only [matmul]
  rw [Ideal.matmul_constant_zero_apply, ← Equiv.sum_comp (ValueIdx.contrEquiv1 dot_S1024x256_S256x12_S1024x12_1_0_0_1_n_n 256 rfl rfl).symm]
  refine Finset.sum_congr rfl fun k _ => ?_
  have hk := ValueIdx.contrEquiv1_symm_val dot_S1024x256_S256x12_S1024x12_1_0_0_1_n_n 256 rfl rfl k
  have el : dot_S1024x256_S256x12_S1024x12_1_0_0_1_n_n.lhsIdx (ix2 r o) ((ValueIdx.contrEquiv1 dot_S1024x256_S256x12_S1024x12_1_0_0_1_n_n 256 rfl rfl).symm k) = ix2 r k := funext fun a => Fin.ext (by
    match a with
    | ⟨0, _⟩ => exact lhs_dotOut_0 _ _
    | ⟨1, _⟩ => exact (lhs_dotOut_1 _ _).trans hk)
  have er : dot_S1024x256_S256x12_S1024x12_1_0_0_1_n_n.rhsIdx (ix2 r o) ((ValueIdx.contrEquiv1 dot_S1024x256_S256x12_S1024x12_1_0_0_1_n_n 256 rfl rfl).symm k) = ix2 k o := funext fun a => Fin.ext (by
    match a with
    | ⟨0, _⟩ => exact (rhs_dotOut_0 _ _).trans hk
    | ⟨1, _⟩ => exact rhs_dotOut_1 _ _)
  rw [el, er]

/-! ## A column of row values spread along the rows -/

variable {α : Type}

/-- A `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 1024 row values, made a column and repeated along the twelve columns, reads at `(r, o)` the value of row `r`. -/
theorem rowColumn_apply (v : FVec Ideal S1024 .f32) (r : Fin 1024) (o : Fin 12) :
    broadcastTo S1024x12 (shapeCast S1024x1 v shapeCasts_S1024_S1024x1) broadcasts_S1024x1_S1024x12 (ix2 r o) = v (ix1 r) := by
  rw [broadcastTo_a1_ab_apply, shapeCast_a_a1_apply]

/-! ## The two reductions along a row -/

/-- The maximum over the twelve columns from the printed starting word, at row `r`: the fold of `max` over that row. -/
theorem rowMaximum_apply (z : FVec Ideal S1024x12 .f32) (r : Fin 1024) :
    multiReduction (F := Ideal) .maximumf [1] S1024 z 0xFF800000#32 reduces_S1024x12_S1024 (.inl rfl) rfl (ix1 r)
      = rowMax (fun o => z (ix2 r o)) := by
  refine (Ideal.multiReduction_maximumf_single z 0xFF800000#32 reduces_S1024x12_S1024 (.inl rfl) rfl (ix1 r)).trans ?_
  have hrow : z ∘ reduces_S1024x12_S1024.lift (ix1 r) = fun o : Fin 12 => z (ix2 r o) :=
    funext fun k => congrArg z (funext fun a => Fin.ext (by match a with | ⟨0, _⟩ => rfl | ⟨1, _⟩ => rfl))
  rw [hrow]
  rfl

/-- The sum over the twelve columns from the zero word, at row `r`: the sum over that row. -/
theorem rowSum_apply (e : FVec Ideal S1024x12 .f32) (r : Fin 1024) :
    multiReduction (F := Ideal) .add [1] S1024 e 0x00000000#32 reduces_S1024x12_S1024 (.inl rfl) rfl (ix1 r)
      = ∑ o : Fin 12, e (ix2 r o) := by
  refine (Ideal.multiReduction_add_single e 0x00000000#32 reduces_S1024x12_S1024 (.inl rfl) rfl (ix1 r)).trans ?_
  exact Finset.sum_congr rfl fun k _ =>
    congrArg e (funext fun a => Fin.ext (by match a with | ⟨0, _⟩ => rfl | ⟨1, _⟩ => rfl))

/-! ## The chunk at an entry -/

/-- The logits of a chunk at entry `(r, o)`: the output product plus the bias row repeated down the rows. -/
theorem logits_apply (w3 : FVec Ideal S256x12 .bf16) (bp : FVec Ideal S1x12 .f32) (h : FVec Ideal S1024x256 .f32)
    (r : Fin 1024) (o : Fin 12) :
    addf (matmul dot_S1024x256_S256x12_S1024x12_1_0_0_1_n_n none (truncf .bf16 h bitsLt_bf16_f32) w3
        (constant (F := Ideal) S1024x12 .f32 0x00000000#32)) (broadcastTo S1024x12 bp broadcasts_S1x12_S1024x12) (ix2 r o)
      = logitRow (fun k => h (ix2 r k)) (fun k o' => w3 (ix2 k o')) (fun o' => bp (ix2 0 o')) o := by
  rw [addf_apply, matmulOut_apply, broadcastTo_1b_ab_apply]
  rfl

/-- The softmax along the rows as the body computes it, at entry `(r, o)`: each entry less its row's maximum,
    exponentiated, over the sum of those exponentials along the row. -/
theorem softmax_apply (z : FVec Ideal S1024x12 .f32) (r : Fin 1024) (o : Fin 12) :
    divf
        (exp (subf z (broadcastTo S1024x12 (shapeCast S1024x1
          (multiReduction (F := Ideal) .maximumf [1] S1024 z 0xFF800000#32 reduces_S1024x12_S1024 (.inl rfl) rfl)
          shapeCasts_S1024_S1024x1) broadcasts_S1024x1_S1024x12)))
        (broadcastTo S1024x12 (shapeCast S1024x1
          (multiReduction (F := Ideal) .add [1] S1024
            (exp (subf z (broadcastTo S1024x12 (shapeCast S1024x1
              (multiReduction (F := Ideal) .maximumf [1] S1024 z 0xFF800000#32 reduces_S1024x12_S1024 (.inl rfl) rfl)
              shapeCasts_S1024_S1024x1) broadcasts_S1024x1_S1024x12)))
            0x00000000#32 reduces_S1024x12_S1024 (.inl rfl) rfl)
          shapeCasts_S1024_S1024x1) broadcasts_S1024x1_S1024x12) (ix2 r o)
      = softRow (fun o' => z (ix2 r o')) o := by
  have hexp : ∀ o' : Fin 12,
      exp (subf z (broadcastTo S1024x12 (shapeCast S1024x1
          (multiReduction (F := Ideal) .maximumf [1] S1024 z 0xFF800000#32 reduces_S1024x12_S1024 (.inl rfl) rfl)
          shapeCasts_S1024_S1024x1) broadcasts_S1024x1_S1024x12)) (ix2 r o')
        = Ideal.exp (z (ix2 r o') - rowMax (fun o'' => z (ix2 r o''))) := by
    intro o'
    show Ideal.exp (subf z _ (ix2 r o')) = _
    rw [subf_apply, rowColumn_apply, rowMaximum_apply]
  rw [divf_apply, rowColumn_apply, rowSum_apply, hexp]
  unfold softRow
  exact congrArg (Ideal.div _) (Finset.sum_congr rfl fun o' _ => hexp o')

/-- Entry `(r, j)` of a chunk's hidden rows is entry `j` of the new hidden row made from row `r` of its operands. -/
theorem hidChunk_apply (w1 : FVec Ideal S24x256 .bf16) (w2 : FVec Ideal S256x256 .bf16) (b : FVec Ideal S1x256 .f32)
    (xc : FVec Ideal S1024x24 .bf16) (hc : FVec Ideal S1024x256 .bf16) (r : Fin 1024) (j : Fin 256) :
    hidChunk w1 w2 b xc hc (ix2 r j)
      = hidRow (fun k => xc (ix2 r k)) (fun k => hc (ix2 r k)) (fun k j' => w1 (ix2 k j')) (fun k j' => w2 (ix2 k j'))
          (fun j' => b (ix2 0 j')) j := by
  unfold hidChunk
  show Ideal.tanh ((addf (addf _ _) _ : FVec Ideal S1024x256 .f32) (ix2 r j)) = _
  rw [addf_apply, addf_apply, matmulIn_apply, matmulHid_apply, broadcastTo_1b_ab_apply]
  rfl

/-- Entry `(r, o)` of a chunk's output rows is entry `o` of the softmax of the logits of row `r` of its hidden rows. -/
theorem probChunk_apply (w3 : FVec Ideal S256x12 .bf16) (bp : FVec Ideal S1x12 .f32) (h : FVec Ideal S1024x256 .f32)
    (r : Fin 1024) (o : Fin 12) :
    probChunk w3 bp h (ix2 r o)
      = softRow (logitRow (fun k => h (ix2 r k)) (fun k o' => w3 (ix2 k o')) (fun o' => bp (ix2 0 o'))) o := by
  unfold probChunk
  dsimp only
  rw [softmax_apply]
  exact congrArg (softRow · o) (funext fun o' => logits_apply w3 bp h r o')

end Cert.KernelIdeal.Chunk

end
-- ==== Proof.BlockValue.lean ====
/-
  What one grid point leaves in its two output blocks, as functions of the block index.

  The body fills each 4096-row output block by four stores of 1024 rows, at row offsets 0, 1024, 2048 and 3072; the
  payload of the store at offset `o` is the chunk computation on rows `o … o + 1023` of the point's input blocks. Since
  that computation is row by row, each stored tile is the restriction of ONE function of the block index — row `r` of the
  hidden block from row `r` of the two input blocks, row `r` of the output block the softmax of the logits of that
  hidden row — and four tiles that cover the block and all restrict one function read back as that function.
-/
import proofs.«427981_j46179488366645_3_alg».proof.Proof.Gen.KernelIdeal.Frame
import proofs.«427981_j46179488366645_3_alg».proof.Proof.ChunkRow
import Idealize.ShloMosaic.Lib.Pipeline.Value
import Idealize.ShloMosaic.Lib.Tactic

set_option maxRecDepth 16384

noncomputable section

namespace Cert.KernelIdeal.Block

open Cert.KernelIdeal Cert.KernelIdeal.Gen Cert.KernelIdeal.Chunk Idealize.ShloMosaic Idealize.ShloMosaic.TcCoe
open Idealize.SL.Sem Idealize.ShloMosaic.Tactic Idealize.ShloMosaic.ValueIdx Cert.RnnStep

theorem zero_offsets : (![0, 0] : Fin 2 → Nat) = fun _ => 0 := funext fun a => by fin_cases a <;> rfl

/-! ## The stores' payloads are the chunk computation -/

theorem pay7_eq (v0 : Vec Ideal S24x256 .f32) (v3 : Vec Ideal S256x256 .f32) (v9 : Vec Ideal S1x256 .f32)
    (v16 : Vec Ideal S1024x24 .f32) (v19 : Vec Ideal S1024x256 .f32) :
    k0_pay7 (F := Ideal) v0 v3 v9 v16 v19
      = hidChunk (k0_pay2 v0) (k0_pay3 v3) (k0_pay5 v9) (truncf .bf16 v16 bitsLt_bf16_f32) (truncf .bf16 v19 bitsLt_bf16_f32) := rfl

theorem pay10_eq (v2 : FVec Ideal S24x256 .bf16) (v5 : FVec Ideal S256x256 .bf16) (v10 : FVec Ideal S1x256 .f32)
    (v47 : Vec Ideal S1024x24 .f32) (v50 : Vec Ideal S1024x256 .f32) :
    k0_pay10 (F := Ideal) v2 v5 v10 v47 v50
      = hidChunk v2 v5 v10 (truncf .bf16 v47 bitsLt_bf16_f32) (truncf .bf16 v50 bitsLt_bf16_f32) := rfl

theorem pay13_eq (v2 : FVec Ideal S24x256 .bf16) (v5 : FVec Ideal S256x256 .bf16) (v10 : FVec Ideal S1x256 .f32)
    (v78 : Vec Ideal S1024x24 .f32) (v81 : Vec Ideal S1024x256 .f32) :
    k0_pay13 (F := Ideal) v2 v5 v10 (k0_pay12 v78) v81
      = hidChunk v2 v5 v10 (truncf .bf16 v78 bitsLt_bf16_f32) (truncf .bf16 v81 bitsLt_bf16_f32) := rfl

theorem pay15_eq (v2 : FVec Ideal S24x256 .bf16) (v5 : FVec Ideal S256x256 .bf16) (v10 : FVec Ideal S1x256 .f32)
    (v109 : Vec Ideal S1024x24 .f32) (v112 : Vec Ideal S1024x256 .f32) :
    k0_pay15 (F := Ideal) v2 v5 v10 v109 v112
      = hidChunk v2 v5 v10 (truncf .bf16 v109 bitsLt_bf16_f32) (truncf .bf16 v112 bitsLt_bf16_f32) := rfl

theorem pay9_eq (v0 : Vec Ideal S24x256 .f32) (v3 : Vec Ideal S256x256 .f32) (v6 : Vec Ideal S256x12 .f32)
    (v9 : Vec Ideal S1x256 .f32) (v11 : Vec Ideal S1x12 .f32) (v16 : Vec Ideal S1024x24 .f32) (v19 : Vec Ideal S1024x256 .f32) :
    k0_pay9 (F := Ideal) (k0_pay8 v0 v3 v6 v9 v11 v16 v19)
      = probChunk (k0_pay4 v6) (k0_pay6 v11) (k0_pay7 v0 v3 v9 v16 v19) := rfl

theorem pay11_eq (v2 : FVec Ideal S24x256 .bf16) (v5 : FVec Ideal S256x256 .bf16) (v8 : FVec Ideal S256x12 .bf16)
    (v10 : FVec Ideal S1x256 .f32) (v12 : FVec Ideal S1x12 .f32) (v47 : Vec Ideal S1024x24 .f32) (v50 : Vec Ideal S1024x256 .f32) :
    k0_pay11 (F := Ideal) v2 v5 v8 v10 v12 v47 v50 = probChunk v8 v12 (k0_pay10 v2 v5 v10 v47 v50) := rfl

theorem pay14_eq (v2 : FVec Ideal S24x256 .bf16) (v5 : FVec Ideal S256x256 .bf16) (v8 : FVec Ideal S256x12 .bf16)
    (v10 : FVec Ideal S1x256 .f32) (v12 : FVec Ideal S1x12 .f32) (v79 : FVec Ideal S1024x24 .bf16) (v81 : Vec Ideal S1024x256 .f32) :
    k0_pay14 (F := Ideal) v2 v5 v8 v10 v12 v79 v81 = probChunk v8 v12 (k0_pay13 v2 v5 v10 v79 v81) := rfl

theorem pay1_eq (v8 : FVec Ideal S256x12 .bf16) (v12 : FVec Ideal S1x12 .f32) (v119 : FVec Ideal S1024x256 .f32) :
    k0_pay1 (F := Ideal) v8 v12 v119 = probChunk v8 v12 v119 := rfl

/-! ## One function of the block index -/

/-- Row `y 0` of the hidden block from row `y 0` of the two input blocks (the weights and the bias as the body narrows
    and reshapes them). -/
def hidBlock (x0 : Vec Ideal S4096x24 .f32) (x1 : Vec Ideal S4096x256 .f32) (w1 : FVec Ideal S24x256 .bf16)
    (w2 : FVec Ideal S256x256 .bf16) (b : FVec Ideal S1x256 .f32) : S4096x256.Idx → EReal :=
  fun y => hidRow (fun k => x0 (ix2 (y 0) k)) (fun k => x1 (ix2 (y 0) k)) (fun k j => w1 (ix2 k j)) (fun k j => w2 (ix2 k j))
    (fun j => b (ix2 0 j)) (y 1)

/-- Row `y 0` of the output block: the softmax of the logits of row `y 0` of a hidden block `h`. -/
def probBlock (h : S4096x256.Idx → EReal) (w3 : FVec Ideal S256x12 .bf16) (bp : FVec Ideal S1x12 .f32) : S4096x12.Idx → EReal :=
  fun y => softRow (logitRow (fun k => h (ix2 (y 0) k)) (fun k o => w3 (ix2 k o)) (fun o => bp (ix2 0 o))) (y 1)

/-- The chunk computation on rows `o … o + 1023` of the input blocks is the block function on those rows. -/
theorem hidChunk_tile (o : Nat)
    (inbX : ∀ a, (![o, 0] : Fin 2 → Nat) a + (![1024, 24] : Fin 2 → Nat) a ≤ S4096x24.size a)
    (inbH : ∀ a, (![o, 0] : Fin 2 → Nat) a + (![1024, 256] : Fin 2 → Nat) a ≤ S4096x256.size a)
    (x0 : Vec Ideal S4096x24 .f32) (x1 : Vec Ideal S4096x256 .f32) (w1 : FVec Ideal S24x256 .bf16)
    (w2 : FVec Ideal S256x256 .bf16) (b : FVec Ideal S1x256 .f32) (y : (⟨2, ![1024, 256]⟩ : Shape).Idx) :
    hidChunk w1 w2 b (truncf .bf16 (View.ld x0 (Rect.unit (s := S4096x24) ![o, 0] ![1024, 24] inbX)) bitsLt_bf16_f32)
        (truncf .bf16 (View.ld x1 (Rect.unit (s := S4096x256) ![o, 0] ![1024, 256] inbH)) bitsLt_bf16_f32) y
      = hidBlock x0 x1 w1 w2 b ((Rect.unit (s := S4096x256) ![o, 0] ![1024, 256] inbH).emb y) := by
  obtain ⟨r, j, rfl⟩ : ∃ (r : Fin 1024) (j : Fin 256), y = ix2 r j := ⟨y 0, y 1, eq_ix2 y⟩
  rw [hidChunk_apply]
  unfold hidBlock
  have e0 : ∀ k : Fin 24, (Rect.unit (s := S4096x24) ![o, 0] ![1024, 24] inbX).idx (ix2 r k)
      = ix2 ((Rect.unit (s := S4096x256) ![o, 0] ![1024, 256] inbH).emb (ix2 r j) 0) k := fun k => funext fun a => Fin.ext (by
    match a with
    | ⟨0, _⟩ => rfl
    | ⟨1, _⟩ => show 0 + 1 * k.val = k.val; omega)
  have e1 : ∀ k : Fin 256, (Rect.unit (s := S4096x256) ![o, 0] ![1024, 256] inbH).idx (ix2 r k)
      = ix2 ((Rect.unit (s := S4096x256) ![o, 0] ![1024, 256] inbH).emb (ix2 r j) 0) k := fun k => funext fun a => Fin.ext (by
    match a with
    | ⟨0, _⟩ => rfl
    | ⟨1, _⟩ => show 0 + 1 * k.val = k.val; omega)
  have ej : j = (Rect.unit (s := S4096x256) ![o, 0] ![1024, 256] inbH).emb (ix2 r j) 1 := Fin.ext (by show j.val = 0 + 1 * j.val; omega)
  rw [← ej]
  congr 1
  · funext k; exact congrArg x0 (e0 k)
  · funext k; exact congrArg x1 (e1 k)

/-- The chunk's output rows, from hidden rows that are rows `o … o + 1023` of a hidden block `H`, are the block function on
    those rows. -/
theorem probChunk_tile (o : Nat)
    (inbP : ∀ a, (![o, 0] : Fin 2 → Nat) a + (![1024, 12] : Fin 2 → Nat) a ≤ S4096x12.size a)
    (inbH : ∀ a, (![o, 0] : Fin 2 → Nat) a + (![1024, 256] : Fin 2 → Nat) a ≤ S4096x256.size a)
    (hc : FVec Ideal S1024x256 .f32) (H : S4096x256.Idx → EReal)
    (hH : ∀ y : (⟨2, ![1024, 256]⟩ : Shape).Idx, hc y = H ((Rect.unit (s := S4096x256) ![o, 0] ![1024, 256] inbH).emb y))
    (w3 : FVec Ideal S256x12 .bf16) (bp : FVec Ideal S1x12 .f32) (y : (⟨2, ![1024, 12]⟩ : Shape).Idx) :
    probChunk w3 bp hc y = probBlock H w3 bp ((Rect.unit (s := S4096x12) ![o, 0] ![1024, 12] inbP).emb y) := by
  obtain ⟨r, q, rfl⟩ : ∃ (r : Fin 1024) (q : Fin 12), y = ix2 r q := ⟨y 0, y 1, eq_ix2 y⟩
  rw [probChunk_apply]
  unfold probBlock
  have eq1 : q = (Rect.unit (s := S4096x12) ![o, 0] ![1024, 12] inbP).emb (ix2 r q) 1 :=
    Fin.ext (by show q.val = 0 + 1 * q.val; omega)
  have eH : (fun k : Fin 256 => hc (ix2 r k))
      = fun k => H (ix2 ((Rect.unit (s := S4096x12) ![o, 0] ![1024, 12] inbP).emb (ix2 r q) 0) k) := funext fun k => by
    rw [hH (ix2 r k)]
    exact congrArg H (funext fun a => Fin.ext (by
      match a with
      | ⟨0, _⟩ => rfl
      | ⟨1, _⟩ => show 0 + 1 * k.val = k.val; omega))
  rw [eH, ← eq1]

/-! ## What the run's pieces read back as -/

/-- The four hidden tiles read back as the hidden block function of the point's input blocks. -/
theorem out7_eq (c : Dev nD) (i : grid0.Coords) (arg1 : Memref sig .tc .vmem S4096x24 .f32) (harg1 : arg1.IsWhole) (arg2 : Memref sig .tc .vmem S4096x256 .f32) (harg2 : arg2.IsWhole) (arg3 : Memref sig .tc .vmem S24x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x12 .f32) (harg6 : arg6.IsWhole) (arg7 : Memref sig .tc .vmem S1x12 .f32) (harg7 : arg7.IsWhole) (arg8 : Memref sig .tc .vmem S4096x256 .f32) (harg8 : arg8.IsWhole) (arg9 : Memref sig .tc .vmem S4096x12 .f32) (harg9 : arg9.IsWhole)
    (x0 : Vec Ideal S4096x24 .f32) (x1 : Vec Ideal S4096x256 .f32) (x2 : Vec Ideal S24x256 .f32) (x3 : Vec Ideal S256x256 .f32) (x4 : Vec Ideal S1x256 .f32) (x5 : Vec Ideal S256x12 .f32) (x6 : Vec Ideal S1x12 .f32) :
    out0_A_7 (F := Ideal) c i arg1 harg1 arg2 harg2 arg3 harg3 arg4 harg4 arg5 harg5 arg6 harg6 arg7 harg7 arg8 harg8 arg9 harg9 x0 x1 x2 x3 x4 x5 x6
      = hidBlock x0 x1 (k0_pay2 x2) (k0_pay3 x3) (k0_pay5 x4) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  funext y
  refine View.canon_apply_of_pieces (hidBlock x0 x1 (k0_pay2 x2) (k0_pay3 x3) (k0_pay5 x4)) _ ?_ y
    (cover0_A_7 c i arg1 harg1 arg2 harg2 arg3 harg3 arg4 harg4 arg5 harg5 arg6 harg6 arg7 harg7 arg8 harg8 arg9 harg9 x0 x1 x2 x3 x4 x5 x6 y)
  unfold kernelRun0_A
  dsimp only
  sl_unfold_words
  intro p hp x
  simp only [List.mem_cons, List.not_mem_nil, or_false] at hp
  rcases hp with rfl | rfl | rfl | rfl
  all_goals
    dsimp only
    simp only [View.readAt_eq_ld, harg1.read_unread, harg2.read_unread, harg3.read_unread, harg4.read_unread,
      harg5.read_unread, View.ld_unit_zero (S := S24x256) zero_offsets, View.ld_unit_zero (S := S256x256) zero_offsets,
      View.ld_unit_zero (S := S1x256) zero_offsets]
  · rw [pay15_eq]; exact hidChunk_tile 3072 _ _ x0 x1 _ _ _ x
  · rw [pay13_eq]; exact hidChunk_tile 2048 _ _ x0 x1 _ _ _ x
  · rw [pay10_eq]; exact hidChunk_tile 1024 _ _ x0 x1 _ _ _ x
  · rw [pay7_eq]; exact hidChunk_tile 0 _ _ x0 x1 _ _ _ x

/-- The four output tiles read back as the output block function of the hidden block. -/
theorem out8_eq (c : Dev nD) (i : grid0.Coords) (arg1 : Memref sig .tc .vmem S4096x24 .f32) (harg1 : arg1.IsWhole) (arg2 : Memref sig .tc .vmem S4096x256 .f32) (harg2 : arg2.IsWhole) (arg3 : Memref sig .tc .vmem S24x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x12 .f32) (harg6 : arg6.IsWhole) (arg7 : Memref sig .tc .vmem S1x12 .f32) (harg7 : arg7.IsWhole) (arg8 : Memref sig .tc .vmem S4096x256 .f32) (harg8 : arg8.IsWhole) (arg9 : Memref sig .tc .vmem S4096x12 .f32) (harg9 : arg9.IsWhole)
    (x0 : Vec Ideal S4096x24 .f32) (x1 : Vec Ideal S4096x256 .f32) (x2 : Vec Ideal S24x256 .f32) (x3 : Vec Ideal S256x256 .f32) (x4 : Vec Ideal S1x256 .f32) (x5 : Vec Ideal S256x12 .f32) (x6 : Vec Ideal S1x12 .f32) :
    out0_A_8 (F := Ideal) c i arg1 harg1 arg2 harg2 arg3 harg3 arg4 harg4 arg5 harg5 arg6 harg6 arg7 harg7 arg8 harg8 arg9 harg9 x0 x1 x2 x3 x4 x5 x6
      = probBlock (hidBlock x0 x1 (k0_pay2 x2) (k0_pay3 x3) (k0_pay5 x4)) (k0_pay4 x5) (k0_pay6 x6) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6)]
  funext y
  refine View.canon_apply_of_pieces
    (probBlock (hidBlock x0 x1 (k0_pay2 x2) (k0_pay3 x3) (k0_pay5 x4)) (k0_pay4 x5) (k0_pay6 x6)) _ ?_ y
    (cover0_A_8 c i arg1 harg1 arg2 harg2 arg3 harg3 arg4 harg4 arg5 harg5 arg6 harg6 arg7 harg7 arg8 harg8 arg9 harg9 x0 x1 x2 x3 x4 x5 x6 y)
  unfold kernelRun0_A
  dsimp only
  sl_unfold_words
  intro p hp x
  simp only [List.mem_cons, List.not_mem_nil, or_false] at hp
  rcases hp with rfl | rfl | rfl | rfl
  all_goals
    dsimp only
    simp only [View.readAt_eq_ld, harg1.read_unread, harg2.read_unread, harg3.read_unread, harg4.read_unread,
      harg5.read_unread, harg6.read_unread, harg7.read_unread, View.ld_unit_zero (S := S24x256) zero_offsets,
      View.ld_unit_zero (S := S256x256) zero_offsets, View.ld_unit_zero (S := S1x256) zero_offsets,
      View.ld_unit_zero (S := S256x12) zero_offsets, View.ld_unit_zero (S := S1x12) zero_offsets]
  · rw [pay1_eq]
    exact probChunk_tile 3072 _ _ _ _ (fun z => by rw [pay15_eq]; exact hidChunk_tile 3072 _ _ x0 x1 _ _ _ z) _ _ x
  · rw [pay14_eq]
    exact probChunk_tile 2048 _ _ _ _ (fun z => by rw [pay13_eq]; exact hidChunk_tile 2048 _ _ x0 x1 _ _ _ z) _ _ x
  · rw [pay11_eq]
    exact probChunk_tile 1024 _ _ _ _ (fun z => by rw [pay10_eq]; exact hidChunk_tile 1024 _ _ x0 x1 _ _ _ z) _ _ x
  · rw [pay9_eq]
    exact probChunk_tile 0 _ _ _ _ (fun z => by rw [pay7_eq]; exact hidChunk_tile 0 _ _ x0 x1 _ _ _ z) _ _ x

end Cert.KernelIdeal.Block

end
-- ==== Proof.ArrayValue.lean ====
/-
  From blocks to whole arrays: what the two result arrays hold after the run.
-/
import proofs.«427981_j46179488366645_3_alg».proof.Proof.Gen.KernelIdeal.Value
import proofs.«427981_j46179488366645_3_alg».proof.Proof.BlockValue
import Idealize.ShloMosaic.Lib.Pipeline.Value
import Idealize.ShloMosaic.Lib.StableHlo.Run
import Idealize.ShloMosaic.Lib.Tactic

set_option maxRecDepth 16384

noncomputable section

namespace Cert.KernelIdeal.Whole

open Cert.KernelIdeal Cert.KernelIdeal.Gen Cert.KernelIdeal.Chunk Cert.KernelIdeal.Block Idealize.ShloMosaic Idealize.ShloMosaic.TcCoe
open Idealize.SL.Sem Idealize.ShloMosaic.Tactic Idealize.ShloMosaic.ValueIdx Cert.RnnStep Idealize.ShloMosaic.StableHlo
open Idealize.ShloMosaic.Pipeline (Dat)

variable (m : (ℓ : Loc nD τ sig) → Buf (Elt Ideal) ℓ) (ρ : Dev nD → PrngReg)

/-! ## The arrays the weight and bias windows stage: transposes, the bias sum, two reshapes -/

theorem V_wih (c : Dev nD) : (V m c main_v0 : S24x256.Idx → EReal)
    = transpose S24x256 [1, 0] (m ((c : Thread nD τ).loc main_arg2)) transposes_S256x24_S24x256_1_0 := by
  dsimp only [Gen.V, Gen.hostOps0]; after_results <;> rfl

theorem V_whh (c : Dev nD) : (V m c main_v1 : S256x256.Idx → EReal)
    = transpose S256x256 [1, 0] (m ((c : Thread nD τ).loc main_arg4)) transposes_S256x256_S256x256_1_0 := by
  dsimp only [Gen.V, Gen.hostOps0]; after_results <;> rfl

theorem V_wproj (c : Dev nD) : (V m c main_v2 : S256x12.Idx → EReal)
    = transpose S256x12 [1, 0] (m ((c : Thread nD τ).loc main_arg6)) transposes_S12x256_S256x12_1_0 := by
  dsimp only [Gen.V, Gen.hostOps0]; after_results <;> rfl

theorem V_bias (c : Dev nD) : (V m c main_v4 : S1x256.Idx → EReal)
    = shapeCast S1x256 (addf (F := Ideal) (φ := .f32) (m ((c : Thread nD τ).loc main_arg3)) (m ((c : Thread nD τ).loc main_arg5))) shapeCasts_S256_S1x256 := by
  dsimp only [Gen.V, Gen.hostOps0]; after_results <;> rfl

theorem V_bproj (c : Dev nD) : (V m c main_v5 : S1x12.Idx → EReal)
    = shapeCast S1x12 (m ((c : Thread nD τ).loc main_arg7)) shapeCasts_S12_S1x12 := by
  dsimp only [Gen.V, Gen.hostOps0]; after_results <;> rfl

/-! ## Where each window's block sits: the printed index maps, decided over the 128 grid points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The input blocks read off the arrays -/

/-- Row `r` of point `t`'s block of `x` is row `4096 t + r` of `x`. -/
theorem blk0_at (c : Dev nD) (t : Fin cfg0.N) (z : S4096x24.Idx) (i : S524288x24.Idx)
    (h0 : (i 0).val = t.val * 4096 + (z 0).val) (h1 : (i 1).val = (z 1).val) :
    iblk m c 0 t z = m ((c : Thread nD τ).loc main_arg0) i := by
  have f := idx_facts t
  show V m c main_arg0 (((cfg0.win 0).blk t).view.emb z) = _
  rw [V_main_arg0]
  refine congrArg _ (funext fun a => Fin.ext ?_)
  match a with
  | ⟨0, _⟩ => show win0_0.index t (0 : Fin 2) * 4096 + 1 * (z 0).val = (i 0).val; omega
  | ⟨1, _⟩ => show win0_0.index t (1 : Fin 2) * 24 + 1 * (z 1).val = (i 1).val; omega

/-- Row `r` of point `t`'s block of the old hidden state is row `4096 t + r` of it. -/
theorem blk1_at (c : Dev nD) (t : Fin cfg0.N) (z : S4096x256.Idx) (i : S524288x256.Idx)
    (h0 : (i 0).val = t.val * 4096 + (z 0).val) (h1 : (i 1).val = (z 1).val) :
    iblk m c 1 t z = m ((c : Thread nD τ).loc main_arg1) i := by
  have f := idx_facts t
  show V m c main_arg1 (((cfg0.win 1).blk t).view.emb z) = _
  rw [V_main_arg1]
  refine congrArg _ (funext fun a => Fin.ext ?_)
  match a with
  | ⟨0, _⟩ => show win0_1.index t (0 : Fin 2) * 4096 + 1 * (z 0).val = (i 0).val; omega
  | ⟨1, _⟩ => show win0_1.index t (1 : Fin 2) * 256 + 1 * (z 1).val = (i 1).val; omega

theorem blk2_at (c : Dev nD) (t : Fin cfg0.N) (z : S24x256.Idx) : iblk m c 2 t z = V m c main_v0 z := by
  have f := idx_facts t
  show V m c main_v0 (((cfg0.win 2).blk t).view.emb z) = _
  refine congrArg _ (funext fun a => Fin.ext ?_)
  match a with
  | ⟨0, _⟩ => show win0_2.index t (0 : Fin 2) * 24 + 1 * (z 0).val = (z 0).val; omega
  | ⟨1, _⟩ => show win0_2.index t (1 : Fin 2) * 256 + 1 * (z 1).val = (z 1).val; omega

theorem blk3_at (c : Dev nD) (t : Fin cfg0.N) (z : S256x256.Idx) : iblk m c 3 t z = V m c main_v1 z := by
  have f := idx_facts t
  show V m c main_v1 (((cfg0.win 3).blk t).view.emb z) = _
  refine congrArg _ (funext fun a => Fin.ext ?_)
  match a with
  | ⟨0, _⟩ => show win0_3.index t (0 : Fin 2) * 256 + 1 * (z 0).val = (z 0).val; omega
  | ⟨1, _⟩ => show win0_3.index t (1 : Fin 2) * 256 + 1 * (z 1).val = (z 1).val; omega

theorem blk4_at (c : Dev nD) (t : Fin cfg0.N) (z : S1x256.Idx) : iblk m c 4 t z = V m c main_v4 z := by
  have f := idx_facts t
  show V m c main_v4 (((cfg0.win 4).blk t).view.emb z) = _
  refine congrArg _ (funext fun a => Fin.ext ?_)
  match a with
  | ⟨0, _⟩ => show win0_4.index t (0 : Fin 2) * 1 + 1 * (z 0).val = (z 0).val; omega
  | ⟨1, _⟩ => show win0_4.index t (1 : Fin 2) * 256 + 1 * (z 1).val = (z 1).val; omega

theorem blk5_at (c : Dev nD) (t : Fin cfg0.N) (z : S256x12.Idx) : iblk m c 5 t z = V m c main_v2 z := by
  have f := idx_facts t
  show V m c main_v2 (((cfg0.win 5).blk t).view.emb z) = _
  refine congrArg _ (funext fun a => Fin.ext ?_)
  match a with
  | ⟨0, _⟩ => show win0_5.index t (0 : Fin 2) * 256 + 1 * (z 0).val = (z 0).val; omega
  | ⟨1, _⟩ => show win0_5.index t (1 : Fin 2) * 12 + 1 * (z 1).val = (z 1).val; omega

theorem blk6_at (c : Dev nD) (t : Fin cfg0.N) (z : S1x12.Idx) : iblk m c 6 t z = V m c main_v5 z := by
  have f := idx_facts t
  show V m c main_v5 (((cfg0.win 6).blk t).view.emb z) = _
  refine congrArg _ (funext fun a => Fin.ext ?_)
  match a with
  | ⟨0, _⟩ => show win0_6.index t (0 : Fin 2) * 1 + 1 * (z 0).val = (z 0).val; omega
  | ⟨1, _⟩ => show win0_6.index t (1 : Fin 2) * 12 + 1 * (z 1).val = (z 1).val; omega

/-! ## The weights and biases as the body uses them, read at an index -/

theorem wih_at (c : Dev nD) (t : Fin cfg0.N) (k : Fin 24) (j : Fin 256) :
    k0_pay2 (F := Ideal) (iblk m c 2 t) (ix2 k j) = m ((c : Thread nD τ).loc main_arg2) (ix2 j k) := by
  unfold k0_pay2
  rw [shapeCast_self]
  refine (blk2_at m c t (ix2 k j)).trans ?_
  rw [V_wih]
  exact transpose_apply [1, 0] _ transposes_S256x24_S24x256_1_0 (ix2 k j) (ix2 j k) (fun b => match b with
    | ⟨0, _⟩ => rfl
    | ⟨1, _⟩ => rfl)

theorem whh_at (c : Dev nD) (t : Fin cfg0.N) (k : Fin 256) (j : Fin 256) :
    k0_pay3 (F := Ideal) (iblk m c 3 t) (ix2 k j) = m ((c : Thread nD τ).loc main_arg4) (ix2 j k) := by
  unfold k0_pay3
  rw [shapeCast_self]
  refine (blk3_at m c t (ix2 k j)).trans ?_
  rw [V_whh]
  exact transpose_apply [1, 0] _ transposes_S256x256_S256x256_1_0 (ix2 k j) (ix2 j k) (fun b => match b with
    | ⟨0, _⟩ => rfl
    | ⟨1, _⟩ => rfl)

theorem wproj_at (c : Dev nD) (t : Fin cfg0.N) (k : Fin 256) (o : Fin 12) :
    k0_pay4 (F := Ideal) (iblk m c 5 t) (ix2 k o) = m ((c : Thread nD τ).loc main_arg6) (ix2 o k) := by
  unfold k0_pay4
  rw [shapeCast_self]
  refine (blk5_at m c t (ix2 k o)).trans ?_
  rw [V_wproj]
  exact transpose_apply [1, 0] _ transposes_S12x256_S256x12_1_0 (ix2 k o) (ix2 o k) (fun b => match b with
    | ⟨0, _⟩ => rfl
    | ⟨1, _⟩ => rfl)

/-- The sum of the two bias vectors at entry `j` (over vectors of their literal type). -/
abbrev biasSum (b₁ b₂ : S256.Idx → EReal) (j : Fin 256) : EReal := b₁ (ix1 j) + b₂ (ix1 j)

theorem bias_at (c : Dev nD) (t : Fin cfg0.N) (j : Fin 256) :
    k0_pay5 (F := Ideal) (iblk m c 4 t) (ix2 0 j)
      = biasSum (m ((c : Thread nD τ).loc main_arg3)) (m ((c : Thread nD τ).loc main_arg5)) j := by
  unfold k0_pay5
  rw [shapeCast_self]
  refine (blk4_at m c t (ix2 0 j)).trans ?_
  rw [V_bias]
  refine (shapeCast_addUnit_apply ![256] _ shapeCasts_S256_S1x256 (ix2 0 j)).trans ?_
  have e : (fun a : Fin 1 => (ix2 (0 : Fin 1) j : S1x256.Idx) a.succ) = (ix1 j : S256.Idx) :=
    funext fun a => match a with | ⟨0, _⟩ => rfl
  rw [e]
  rfl

theorem bproj_at (c : Dev nD) (t : Fin cfg0.N) (o : Fin 12) :
    k0_pay6 (F := Ideal) (iblk m c 6 t) (ix2 0 o) = m ((c : Thread nD τ).loc main_arg7) (ix1 o) := by
  unfold k0_pay6
  rw [shapeCast_self]
  refine (blk6_at m c t (ix2 0 o)).trans ?_
  rw [V_bproj]
  refine (shapeCast_addUnit_apply ![12] _ shapeCasts_S12_S1x12 (ix2 0 o)).trans ?_
  exact congrArg _ (funext fun a => match a with | ⟨0, _⟩ => rfl)

/-! ## The block functions are the specification at the array index -/

theorem hidRow_congr {xr xr' : Fin 24 → EReal} {hr hr' : Fin 256 → EReal} {wih wih' : Fin 24 → Fin 256 → EReal}
    {whh whh' : Fin 256 → Fin 256 → EReal} {b b' : Fin 256 → EReal} {j j' : Fin 256}
    (h1 : xr = xr') (h2 : hr = hr') (h3 : wih = wih') (h4 : whh = whh') (h5 : b = b') (h6 : j = j') :
    hidRow xr hr wih whh b j = hidRow xr' hr' wih' whh' b' j' := by subst h1 h2 h3 h4 h5 h6; rfl

theorem softLogit_congr {h h' : Fin 256 → EReal} {wp wp' : Fin 256 → Fin 12 → EReal} {bp bp' : Fin 12 → EReal} {o o' : Fin 12}
    (h1 : h = h') (h2 : wp = wp') (h3 : bp = bp') (h4 : o = o') :
    softRow (logitRow h wp bp) o = softRow (logitRow h' wp' bp') o' := by subst h1 h2 h3 h4; rfl

/-- Entry `z` of point `t`'s hidden block is entry `(4096 t + z 0, z 1)` of the new hidden state. -/
theorem hidBlock_at (c : Dev nD) (t : Fin cfg0.N) (z : S4096x256.Idx) (i : S524288x256.Idx)
    (h0 : (i 0).val = t.val * 4096 + (z 0).val) (h1 : (i 1).val = (z 1).val) :
    hidBlock (iblk m c 0 t) (iblk m c 1 t) (k0_pay2 (iblk m c 2 t)) (k0_pay3 (iblk m c 3 t)) (k0_pay5 (iblk m c 4 t)) z
      = hNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold hidBlock hNew
  exact hidRow_congr
    (funext fun k => blk0_at m c t (ix2 (z 0) k) (ix2 (i 0) k) h0 rfl)
    (funext fun k => blk1_at m c t (ix2 (z 0) k) (ix2 (i 0) k) h0 rfl)
    (funext fun k => funext fun j => wih_at m c t k j)
    (funext fun k => funext fun j => whh_at m c t k j)
    (funext fun j => bias_at m c t j)
    (Fin.ext h1.symm)

/-- Entry `z` of point `t`'s output block is entry `(4096 t + z 0, z 1)` of the output probabilities. -/
theorem probBlock_at (c : Dev nD) (t : Fin cfg0.N) (z : S4096x12.Idx) (i : S524288x12.Idx)
    (h0 : (i 0).val = t.val * 4096 + (z 0).val) (h1 : (i 1).val = (z 1).val) :
    probBlock (hidBlock (iblk m c 0 t) (iblk m c 1 t) (k0_pay2 (iblk m c 2 t)) (k0_pay3 (iblk m c 3 t)) (k0_pay5 (iblk m c 4 t)))
        (k0_pay4 (iblk m c 5 t)) (k0_pay6 (iblk m c 6 t)) z
      = probs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  unfold probBlock probs
  exact softLogit_congr
    (funext fun k => hidBlock_at m c t (ix2 (z 0) k) (ix2 (i 0) k) h0 rfl)
    (funext fun k => funext fun o => wproj_at m c t k o)
    (funext fun o => bproj_at m c t o)
    (Fin.ext h1.symm)

/-! ## What each point writes back, the cover, and the arrays after the run -/

/-- What point `t` writes back to the hidden-state array is block `t` of the new hidden state. -/
theorem flushed7_eq (c : Dev nD) (t : Fin cfg0.N) :
    (dats m 0 c).flushed 7 t = ((cfg0.win 7).blk t).view.read (Elt Ideal) (hNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (Value.flushed7_A m c t).trans ?_
  rw [out7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t)]
  have f := idx_facts t
  funext y
  exact hidBlock_at m c t _ _
    (by show win0_7.index t (0 : Fin 2) * 4096 + 1 * (y 0).val = t.val * 4096 + (y 0).val; omega)
    (by show win0_7.index t (1 : Fin 2) * 256 + 1 * (y 1).val = (y 1).val; omega)

/-- What point `t` writes back to the output array is block `t` of the output probabilities. -/
theorem flushed8_eq (c : Dev nD) (t : Fin cfg0.N) :
    (dats m 0 c).flushed 8 t = ((cfg0.win 8).blk t).view.read (Elt Ideal) (probs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (Value.flushed8_A m c t).trans ?_
  rw [out8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t)]
  have f := idx_facts t
  funext y
  exact probBlock_at m c t _ _
    (by show win0_8.index t (0 : Fin 2) * 4096 + 1 * (y 0).val = t.val * 4096 + (y 0).val; omega)
    (by show win0_8.index t (1 : Fin 2) * 12 + 1 * (y 1).val = (y 1).val; omega)

/-- An index of the hidden-state array is in point `t`'s block iff each coordinate is in the block's range. -/
theorem mem_blk7 (t : Fin cfg0.N) (i : S524288x256.Idx) :
    i ∈ ((cfg0.win 7).blk t).view.set ↔ ∀ a : Fin 2, win0_7.index t a * S4096x256.size a ≤ (i a).val
      ∧ (i a).val < win0_7.index t a * S4096x256.size a + S4096x256.size a := by
  show i ∈ ((View.whole main_v6_0).slice (win0_7.rect t)).set ↔ _
  rw [View.set_slice_whole, Rect.mem_set_unit]
  exact Iff.rfl

theorem mem_blk8 (t : Fin cfg0.N) (i : S524288x12.Idx) :
    i ∈ ((cfg0.win 8).blk t).view.set ↔ ∀ a : Fin 2, win0_8.index t a * S4096x12.size a ≤ (i a).val
      ∧ (i a).val < win0_8.index t a * S4096x12.size a + S4096x12.size a := by
  show i ∈ ((View.whole main_v6_1).slice (win0_8.rect t)).set ↔ _
  rw [View.set_slice_whole, Rect.mem_set_unit]
  exact Iff.rfl

/-- Row `n` lies in the block of point `n / 4096`: the 128 blocks of 4096 rows tile the 524288 rows. -/
theorem cover7 (i : S524288x256.Idx) :
    ∃ t : Fin cfg0.N, (cfg0.win 7).flush t = true ∧ i ∈ ((cfg0.win 7).blk t).view.set := by
  have hi0 : (i 0).val < 524288 := (i 0).isLt
  have hi1 : (i 1).val < 256 := (i 1).isLt
  have hN : cfg0.N = 128 := N_0
  have ht : (i 0).val / 4096 < cfg0.N := by rw [hN]; omega
  have f := idx_facts ⟨(i 0).val / 4096, ht⟩
  refine ⟨⟨(i 0).val / 4096, ht⟩, flush0_7 _, ?_⟩
  rw [mem_blk7]
  intro a
  match a with
  | ⟨0, _⟩ =>
    show win0_7.index ⟨(i 0).val / 4096, ht⟩ (0 : Fin 2) * 4096 ≤ (i 0).val
      ∧ (i 0).val < win0_7.index ⟨(i 0).val / 4096, ht⟩ (0 : Fin 2) * 4096 + 4096
    have e : win0_7.index ⟨(i 0).val / 4096, ht⟩ (0 : Fin 2) = (i 0).val / 4096 := f.2.2.2.2.2.2.2.2.2.2.2.2.2.2.1
    omega
  | ⟨1, _⟩ =>
    show win0_7.index ⟨(i 0).val / 4096, ht⟩ (1 : Fin 2) * 256 ≤ (i 1).val
      ∧ (i 1).val < win0_7.index ⟨(i 0).val / 4096, ht⟩ (1 : Fin 2) * 256 + 256
    have e : win0_7.index ⟨(i 0).val / 4096, ht⟩ (1 : Fin 2) = 0 := f.2.2.2.2.2.2.2.2.2.2.2.2.2.2.2.1
    omega

theorem cover8 (i : S524288x12.Idx) :
    ∃ t : Fin cfg0.N, (cfg0.win 8).flush t = true ∧ i ∈ ((cfg0.win 8).blk t).view.set := by
  have hi0 : (i 0).val < 524288 := (i 0).isLt
  have hi1 : (i 1).val < 12 := (i 1).isLt
  have hN : cfg0.N = 128 := N_0
  have ht : (i 0).val / 4096 < cfg0.N := by rw [hN]; omega
  have f := idx_facts ⟨(i 0).val / 4096, ht⟩
  refine ⟨⟨(i 0).val / 4096, ht⟩, flush0_8 _, ?_⟩
  rw [mem_blk8]
  intro a
  match a with
  | ⟨0, _⟩ =>
    show win0_8.index ⟨(i 0).val / 4096, ht⟩ (0 : Fin 2) * 4096 ≤ (i 0).val
      ∧ (i 0).val < win0_8.index ⟨(i 0).val / 4096, ht⟩ (0 : Fin 2) * 4096 + 4096
    have e : win0_8.index ⟨(i 0).val / 4096, ht⟩ (0 : Fin 2) = (i 0).val / 4096 := f.2.2.2.2.2.2.2.2.2.2.2.2.2.2.2.2.1
    omega
  | ⟨1, _⟩ =>
    show win0_8.index ⟨(i 0).val / 4096, ht⟩ (1 : Fin 2) * 12 ≤ (i 1).val
      ∧ (i 1).val < win0_8.index ⟨(i 0).val / 4096, ht⟩ (1 : Fin 2) * 12 + 12
    have e : win0_8.index ⟨(i 0).val / 4096, ht⟩ (1 : Fin 2) = 0 := f.2.2.2.2.2.2.2.2.2.2.2.2.2.2.2.2.2
    omega

/-- The hidden-state array after the run is the new hidden state of the arguments. -/
theorem final7 (c : Dev nD) : (dats m 0 c).arrAt 7 cfg0.N = hNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 (hNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed7_eq m c t) cover7

/-- The output array after the run is the output probabilities of the arguments. -/
theorem final8 (c : Dev nD) : (dats m 0 c).arrAt 8 cfg0.N = probs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 (probs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed8_eq m c t) cover8

/-- The kernel's run: every weakly fair execution ends with the output array at `probs` and the hidden-state array at
    `hNew` of the argument arrays, the arguments unchanged. -/
theorem run : θ_run defs (onTc (τ := τ) (main (F := Ideal))) ⟨m, fun _ => 0, ρ⟩ fun r => ∀ c : Dev nD,
      r.2.mem ((c : Thread nD τ).loc main_v6_1) = probs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v6_0) = hNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).2.1.trans (final8 m c), (h c).1.trans (final7 m c), (h c).2.2⟩)
    (Value.run_blocks m ρ)

end Cert.KernelIdeal.Whole

end
-- ==== Proof.RefRow.lean ====
/-
  The reference's two results are the specification.

  The reference computes, over the whole arrays, `h = tanh (((x · Wihᵀ + bih) + hid · Whhᵀ) + bhh)` and then the softmax of
  `h · Wprojᵀ + bproj` along the twelve columns (the row maximum taken once more against the value it was folded from).
  Read at an index, each is the row function of the specification at that row; the two biases added one after the other
  are their sum added once (addition on the extended reals is commutative and associative).
-/
import proofs.«427981_j46179488366645_3_alg».proof.Proof.Gen.ReferenceIdeal.Read
import proofs.«427981_j46179488366645_3_alg».proof.Proof.RnnRow
import Idealize.ShloMosaic.PureOps.Reduce
import Idealize.ShloMosaic.PureOps.Ideal.Laws

noncomputable section

namespace Cert.ReferenceIdeal.RefRow

open Cert.ReferenceIdeal Cert.ReferenceIdeal.Gen Cert.ReferenceIdeal.Read Idealize.ShloMosaic Idealize.ShloMosaic.ValueIdx
open Cert.RnnStep

/-- The left operand of the input product is read at row `i 0`, column `k`. -/
theorem lidx_v1_eq (i : S524288x256.Idx) (k : Fin 24) : lidx_main_v1 i k = ix2 (i 0) k :=
  funext fun a => Fin.ext (by match a with | ⟨0, _⟩ => rfl | ⟨1, _⟩ => rfl)

/-- The input weights, transposed, are read at row `i 1`, column `k`. -/
theorem ridx_v1_eq (i : S524288x256.Idx) (k : Fin 24) : idx_main_v0 (ridx_main_v1 i k) = ix2 (i 1) k :=
  funext fun a => Fin.ext (by match a with | ⟨0, _⟩ => rfl | ⟨1, _⟩ => rfl)

/-- The left operand of the recurrent product is read at row `i 0`, column `k`. -/
theorem lidx_v6_eq (i : S524288x256.Idx) (k : Fin 256) : lidx_main_v6 i k = ix2 (i 0) k :=
  funext fun a => Fin.ext (by match a with | ⟨0, _⟩ => rfl | ⟨1, _⟩ => rfl)

/-- The recurrent weights, transposed, are read at row `i 1`, column `k`. -/
theorem ridx_v6_eq (i : S524288x256.Idx) (k : Fin 256) : idx_main_v5 (ridx_main_v6 i k) = ix2 (i 1) k :=
  funext fun a => Fin.ext (by match a with | ⟨0, _⟩ => rfl | ⟨1, _⟩ => rfl)

/-- The first bias, broadcast along the rows, is read at column `i 1`. -/
theorem bidx_v3_eq (i : S524288x256.Idx) : idx_main_v2 (idx_main_v3 i) = ix1 (i 1) :=
  funext fun a => Fin.ext (by match a with | ⟨0, _⟩ => rfl)

/-- The second bias, broadcast along the rows, is read at column `i 1`. -/
theorem bidx_v9_eq (i : S524288x256.Idx) : idx_main_v8 (idx_main_v9 i) = ix1 (i 1) :=
  funext fun a => Fin.ext (by match a with | ⟨0, _⟩ => rfl)

/-- The reference's new hidden state is `hNew` of its arguments. -/
theorem hidden_eq (x0 : (⟨S524288x24, .f32⟩ : BufTy).Contents (Elt Ideal)) (x1 : (⟨S524288x256, .f32⟩ : BufTy).Contents (Elt Ideal))
    (x2 : (⟨S256x24, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    val_main_v11 (F := Ideal) x0 x1 x2 x3 x4 x5 = hNew x0 x1 x2 x3 x4 x5 := by
  funext i
  rw [val_main_v11_apply, val_main_v10_apply, val_main_v7_apply, val_main_v4_apply, val_main_v1_apply, val_main_v3_apply,
    val_main_v2_apply, val_main_v6_apply, val_main_v9_apply, val_main_v8_apply]
  simp only [val_main_v0_apply, val_main_v5_apply, lidx_v1_eq, ridx_v1_eq, lidx_v6_eq, ridx_v6_eq, bidx_v3_eq, bidx_v9_eq,
    Ideal.hostUnary_tanh_def, Ideal.addf_def]
  exact congrArg Ideal.tanh (add_bias_split _ _ _ _)

/-- The hidden state, as the left operand of the projection, is read at row `n`, column `k`. -/
theorem lidx_v13_eq (n : Fin 524288) (o : Fin 12) (k : Fin 256) : lidx_main_v13 (ix2 n o) k = ix2 n k :=
  funext fun a => Fin.ext (by match a with | ⟨0, _⟩ => rfl | ⟨1, _⟩ => rfl)

/-- The projection weights, transposed, are read at row `o`, column `k`. -/
theorem ridx_v13_eq (n : Fin 524288) (o : Fin 12) (k : Fin 256) : idx_main_v12 (ridx_main_v13 (ix2 n o) k) = ix2 o k :=
  funext fun a => Fin.ext (by match a with | ⟨0, _⟩ => rfl | ⟨1, _⟩ => rfl)

/-- The projection bias, broadcast along the rows, is read at column `o`. -/
theorem bidx_v15_eq (n : Fin 524288) (o : Fin 12) : idx_main_v14 (idx_main_v15 (ix2 n o)) = ix1 o :=
  funext fun a => Fin.ext (by match a with | ⟨0, _⟩ => rfl)

/-- A per-row value broadcast along the twelve columns is read at row `n` (the row maximum's two broadcasts). -/
theorem bidx_v21_eq (n : Fin 524288) (o : Fin 12) : idx_main_v20 (idx_main_v21 (ix2 n o)) = ix1 n :=
  funext fun a => Fin.ext (by match a with | ⟨0, _⟩ => rfl)

/-- The row sum, broadcast along the twelve columns and read at `(n, o)`, runs over the entries `(n, k)`. -/
theorem ridx_v24_eq (n : Fin 524288) (o : Fin 12) (k : Fin 12) :
    idx_main_v24 (idx_main_v25 (idx_main_v26 (ix2 n o))) k = ix2 n k :=
  funext fun a => Fin.ext (by match a with | ⟨0, _⟩ => rfl | ⟨1, _⟩ => rfl)

/-- The reference's row maximum at row `n`: the fold of `max` over the twelve logits of that row, from the value it is
    started at. The reduction runs over the second axis, so the source index over row `n` with `k` put on that axis is
    `(n, k)`. -/
theorem rowmax_apply (x0 : (⟨S524288x24, .f32⟩ : BufTy).Contents (Elt Ideal)) (x1 : (⟨S524288x256, .f32⟩ : BufTy).Contents (Elt Ideal))
    (x2 : (⟨S256x24, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S12x256, .f32⟩ : BufTy).Contents (Elt Ideal)) (x7 : (⟨S12, .f32⟩ : BufTy).Contents (Elt Ideal)) (n : Fin 524288) :
    val_main_v17 (F := Ideal) x0 x1 x2 x3 x4 x5 x6 x7 (ix1 n)
      = (Finset.univ : Finset (Fin 12)).fold max maxInit
          (fun k => val_main_v16 (F := Ideal) x0 x1 x2 x3 x4 x5 x6 x7 (ix2 n k)) := by
  unfold val_main_v17
  generalize val_main_v16 (F := Ideal) x0 x1 x2 x3 x4 x5 x6 x7 = y
  have h : S524288x12.Reduces [1] S524288 := by decide
  refine (Host.reduce_eq_fold_single (FloatOps.maximumf (F := Ideal) (φ := .f32)) y (val_main_cst (F := Ideal))
    reducesTo_S524288x12_S524288_d1 h h_S_ (ix1 n)).trans ?_
  have hf : (y ∘ h.lift (ix1 n)) = fun k : Fin 12 => y (ix2 n k) :=
    funext fun k => congrArg y (funext fun a => Fin.ext (by match a with | ⟨0, _⟩ => rfl | ⟨1, _⟩ => rfl))
  exact congrArg (fun f : Fin 12 → EReal => (Finset.univ : Finset (Fin 12)).fold max maxInit f) hf

/-- The reference's logits at `(n, o)`: entry `o` of `logitRow` of row `n` of the new hidden state. -/
theorem logit_apply (x0 : (⟨S524288x24, .f32⟩ : BufTy).Contents (Elt Ideal)) (x1 : (⟨S524288x256, .f32⟩ : BufTy).Contents (Elt Ideal))
    (x2 : (⟨S256x24, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S12x256, .f32⟩ : BufTy).Contents (Elt Ideal)) (x7 : (⟨S12, .f32⟩ : BufTy).Contents (Elt Ideal)) (n : Fin 524288) (o : Fin 12) :
    val_main_v16 (F := Ideal) x0 x1 x2 x3 x4 x5 x6 x7 (ix2 n o)
      = logitRow (fun k => hNew x0 x1 x2 x3 x4 x5 (ix2 n k)) (fun k o => x6 (ix2 o k)) (fun o => x7 (ix1 o)) o := by
  rw [val_main_v16_apply, val_main_v13_apply, val_main_v15_apply, val_main_v14_apply, hidden_eq]
  simp only [val_main_v12_apply, lidx_v13_eq, ridx_v13_eq, bidx_v15_eq, Ideal.addf_def]
  rfl

/-- Row `n` of the reference's logits, in the specification's terms. -/
abbrev refLogits (x0 : (⟨S524288x24, .f32⟩ : BufTy).Contents (Elt Ideal)) (x1 : (⟨S524288x256, .f32⟩ : BufTy).Contents (Elt Ideal))
    (x2 : (⟨S256x24, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S12x256, .f32⟩ : BufTy).Contents (Elt Ideal)) (x7 : (⟨S12, .f32⟩ : BufTy).Contents (Elt Ideal)) (n : Fin 524288) : Fin 12 → EReal :=
  logitRow (fun k => hNew x0 x1 x2 x3 x4 x5 (ix2 n k)) (fun k o => x6 (ix2 o k)) (fun o => x7 (ix1 o))

/-- The reference's maximum of row `n` (taken once more against the value the fold starts from) is `rowMax` of that row's
    logits. -/
theorem max_apply (x0 : (⟨S524288x24, .f32⟩ : BufTy).Contents (Elt Ideal)) (x1 : (⟨S524288x256, .f32⟩ : BufTy).Contents (Elt Ideal))
    (x2 : (⟨S256x24, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S12x256, .f32⟩ : BufTy).Contents (Elt Ideal)) (x7 : (⟨S12, .f32⟩ : BufTy).Contents (Elt Ideal)) (n : Fin 524288) :
    val_main_v19 (F := Ideal) x0 x1 x2 x3 x4 x5 x6 x7 (ix1 n) = rowMax (refLogits x0 x1 x2 x3 x4 x5 x6 x7 n) := by
  rw [val_main_v19_apply, val_main_v18_apply, val_main_cst_0_apply, rowmax_apply]
  have hz : (fun k => val_main_v16 (F := Ideal) x0 x1 x2 x3 x4 x5 x6 x7 (ix2 n k)) = refLogits x0 x1 x2 x3 x4 x5 x6 x7 n :=
    funext fun k => logit_apply x0 x1 x2 x3 x4 x5 x6 x7 n k
  rw [hz]
  exact max_init_rowMax _

/-- The reference's exponential at `(n, o)`: `exp` of the logit less the row's maximum. -/
theorem exp_apply (x0 : (⟨S524288x24, .f32⟩ : BufTy).Contents (Elt Ideal)) (x1 : (⟨S524288x256, .f32⟩ : BufTy).Contents (Elt Ideal))
    (x2 : (⟨S256x24, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S12x256, .f32⟩ : BufTy).Contents (Elt Ideal)) (x7 : (⟨S12, .f32⟩ : BufTy).Contents (Elt Ideal)) (n : Fin 524288) (o : Fin 12) :
    val_main_v23 (F := Ideal) x0 x1 x2 x3 x4 x5 x6 x7 (ix2 n o)
      = Ideal.exp (refLogits x0 x1 x2 x3 x4 x5 x6 x7 n o - rowMax (refLogits x0 x1 x2 x3 x4 x5 x6 x7 n)) := by
  rw [val_main_v23_apply, val_main_v22_apply, val_main_v21_apply, val_main_v20_apply, bidx_v21_eq, max_apply, logit_apply]
  rfl

/-- The reference's output probabilities are `probs` of its arguments. -/
theorem probs_eq (x0 : (⟨S524288x24, .f32⟩ : BufTy).Contents (Elt Ideal)) (x1 : (⟨S524288x256, .f32⟩ : BufTy).Contents (Elt Ideal))
    (x2 : (⟨S256x24, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S12x256, .f32⟩ : BufTy).Contents (Elt Ideal)) (x7 : (⟨S12, .f32⟩ : BufTy).Contents (Elt Ideal)) :
    val_main_v27 (F := Ideal) x0 x1 x2 x3 x4 x5 x6 x7 = probs x0 x1 x2 x3 x4 x5 x6 x7 := by
  funext i
  obtain ⟨n, o, rfl⟩ : ∃ (n : Fin 524288) (o : Fin 12), i = ix2 n o := ⟨i 0, i 1, eq_ix2 i⟩
  rw [val_main_v27_apply, val_main_v26_apply, val_main_v25_apply, val_main_v24_apply, val_main_cst_1_apply, exp_apply]
  have hs : ∀ k : Fin 12,
      val_main_v23 (F := Ideal) x0 x1 x2 x3 x4 x5 x6 x7 (idx_main_v24 (idx_main_v25 (idx_main_v26 (ix2 n o))) k)
        = Ideal.exp (refLogits x0 x1 x2 x3 x4 x5 x6 x7 n k - rowMax (refLogits x0 x1 x2 x3 x4 x5 x6 x7 n)) :=
    fun k => by rw [ridx_v24_eq, exp_apply]
  rw [Finset.sum_congr rfl (fun k _ => hs k), Ideal.ofBits_def, Ideal.ofBits_zero_f32, zero_add, Ideal.hostDivf_def]
  rfl

end Cert.ReferenceIdeal.RefRow

end
-- ==== Proof.lean ====
/-
  One step of a recurrent cell followed by a softmax, kernel against reference, over the extended reals.

  Both programs take inputs `x` (524288 × 24), an old hidden state (524288 × 256), weights `Wih` (256 × 24),
  `Whh` (256 × 256), `Wproj` (12 × 256) and biases `bih`, `bhh` (256), `bproj` (12), and return the new hidden state
  `h = tanh (x · Wihᵀ + hid · Whhᵀ + bih + bhh)` and the row-wise softmax of `h · Wprojᵀ + bproj`.

  The kernel walks the rows in 128 blocks of 4096, each block in four chunks of 1024 rows; it adds the two biases
  together once before the region and adds their sum after the two matrix products, where the reference adds `bih` after
  the first product and `bhh` after the second. Over the extended reals a change of float format is the identity, a matrix
  product is the sum of the products whatever the blocking, and addition is commutative and associative, so the two
  groupings agree; the reference's extra maximum of the row maximum with the value the maximum is folded from changes
  nothing; and the row sum started from the zero word is the sum. Every row depends on its own row of the inputs only,
  so the four stored tiles of a block are the restriction of one function of the block's index, the 128 blocks tile the
  arrays, and both result arrays end at the specification's functions `probs` and `hNew` of the argument arrays — the same
  functions the reference's run ends at. No fact about the inputs being finite is used.

  The ideal pass rewrote nothing in the kernel, so the idealization conjunct is `True`.
-/
import proofs.«427981_j46179488366645_3_alg».proof.Defs
import proofs.«427981_j46179488366645_3_alg».proof.Proof.Gen.Kernel
import proofs.«427981_j46179488366645_3_alg».proof.Proof.Gen.Kernel.Skeleton
import proofs.«427981_j46179488366645_3_alg».proof.Proof.Gen.Kernel.Launch
import proofs.«427981_j46179488366645_3_alg».proof.Proof.Gen.Kernel.Points
import proofs.«427981_j46179488366645_3_alg».proof.Proof.Gen.Kernel.Frame
import proofs.«427981_j46179488366645_3_alg».proof.Proof.Gen.KernelIdeal
import proofs.«427981_j46179488366645_3_alg».proof.Proof.Gen.KernelIdeal.Skeleton
import proofs.«427981_j46179488366645_3_alg».proof.Proof.Gen.KernelIdeal.Launch
import proofs.«427981_j46179488366645_3_alg».proof.Proof.Gen.KernelIdeal.Points
import proofs.«427981_j46179488366645_3_alg».proof.Proof.Gen.KernelIdeal.Frame
import proofs.«427981_j46179488366645_3_alg».proof.Proof.Gen.ReferenceIdeal
import proofs.«427981_j46179488366645_3_alg».proof.Proof.Gen.KernelIdeal.Value
import proofs.«427981_j46179488366645_3_alg».proof.Proof.Gen.ReferenceIdeal.Run
import proofs.«427981_j46179488366645_3_alg».proof.Proof.Gen.ReferenceIdeal.Read
import proofs.«427981_j46179488366645_3_alg».proof.Proof.Gen.Pre_finite_inputs
import proofs.«427981_j46179488366645_3_alg».proof.Proof.ArrayValue
import proofs.«427981_j46179488366645_3_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both runs end with the output probabilities at `probs` and the hidden state
    at `hNew` of the arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v27_eq, Cert.ReferenceIdeal.RefRow.probs_eq, a0, a1, a2, a3, a4, a5, a6, a7]
  · obtain ⟨a0, a1, a2, a3, a4, a5, a6, a7⟩ := hagree c
    rw [Cert.ReferenceIdeal.Read.val_main_v11_eq, Cert.ReferenceIdeal.RefRow.hidden_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
